-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S100x64 : Shape := ⟨2, ![100, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg2 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg2 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  main_v20

def fn {F : FTy → Type} [FloatOps F] (main_arg0 : FVec F S1000000x64 .f32) (main_arg1 : FVec F S1000000x64 .f32) (main_arg2 : IVec S1000000 32) (main_arg3 : FVec F S100x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S100x64 .f32 := Host.absf main_arg3
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg2 main_v14
  let main_c_5 : IVec S_ 32 := constantI S_ 32 100#32
  fn_part1 (F := F) main_arg2 main_v13 main_v15 main_c_5
-- ==== Kernel.lean ====
abbrev S1000000x64 : Shape := ⟨2, ![1000000, 64]⟩
abbrev S1000000 : Shape := ⟨1, ![1000000]⟩
abbrev S100x64 : Shape := ⟨2, ![100, 64]⟩
abbrev S500000x128 : Shape := ⟨2, ![500000, 128]⟩
abbrev S500000x2 : Shape := ⟨2, ![500000, 2]⟩
abbrev S2x128x64 : Shape := ⟨3, ![2, 128, 64]⟩
abbrev S2x128x8 : Shape := ⟨3, ![2, 128, 8]⟩
abbrev S2x1x128 : Shape := ⟨3, ![2, 1, 128]⟩
abbrev S5000x128 : Shape := ⟨2, ![5000, 128]⟩
abbrev S5000x2 : Shape := ⟨2, ![5000, 2]⟩
abbrev S1x128x64 : Shape := ⟨3, ![1, 128, 64]⟩
abbrev S1x128x8 : Shape := ⟨3, ![1, 128, 8]⟩
abbrev S1x1x128 : Shape := ⟨3, ![1, 1, 128]⟩
abbrev S128x64 : Shape := ⟨2, ![128, 64]⟩
abbrev S128x8 : Shape := ⟨2, ![128, 8]⟩
abbrev S1x128 : Shape := ⟨2, ![1, 128]⟩
abbrev S5000 : Shape := ⟨1, ![5000]⟩
abbrev S5000x1 : Shape := ⟨2, ![5000, 1]⟩
abbrev S1 : Shape := ⟨1, ![1]⟩
abbrev S1x1 : Shape := ⟨2, ![1, 1]⟩
abbrev S5000x64 : Shape := ⟨2, ![5000, 64]⟩
abbrev S5000x8 : Shape := ⟨2, ![5000, 8]⟩
abbrev S_ : Shape := ⟨0, ![]⟩
abbrev S128 : Shape := ⟨1, ![128]⟩
abbrev S128x1 : Shape := ⟨2, ![128, 1]⟩

abbrev nBuf : Space → Nat
  | .hbm => 43
  | .vmem => 13
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000, .i32⟩
  | .hbm, ⟨3, _⟩ => ⟨S100x64, .f32⟩
  | .hbm, ⟨4, _⟩ => ⟨S500000x128, .f32⟩
  | .hbm, ⟨5, _⟩ => ⟨S500000x128, .f32⟩
  | .hbm, ⟨6, _⟩ => ⟨S500000x2, .i32⟩
  | .hbm, ⟨7, _⟩ => ⟨S2x128x64, .f32⟩
  | .hbm, ⟨8, _⟩ => ⟨S2x128x8, .f32⟩
  | .hbm, ⟨9, _⟩ => ⟨S2x1x128, .f32⟩
  | .hbm, ⟨10, _⟩ => ⟨S_, .f32⟩
  | .hbm, ⟨11, _⟩ => ⟨S128x64, .f32⟩
  | .hbm, ⟨12, _⟩ => ⟨S_, .f32⟩
  | .hbm, ⟨13, _⟩ => ⟨S128x8, .f32⟩
  | .hbm, ⟨14, _⟩ => ⟨S_, .f32⟩
  | .hbm, ⟨15, _⟩ => ⟨S1x128, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .i32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S_, .f32⟩
  | .hbm, ⟨25, _⟩ => ⟨S_, .f32⟩
  | .hbm, ⟨26, _⟩ => ⟨S128x64, .f32⟩
  | .hbm, ⟨27, _⟩ => ⟨S_, .f32⟩
  | .hbm, ⟨28, _⟩ => ⟨S128, .f32⟩
  | .hbm, ⟨29, _⟩ => ⟨S128x1, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x2, .i32⟩
  | .local _ .vmem, ⟨5, _⟩ => ⟨S5000x2, .i32⟩
  | .local _ .vmem, ⟨6, _⟩ => ⟨S1x128x64, .f32⟩
  | .local _ .vmem, ⟨7, _⟩ => ⟨S1x128x64, .f32⟩
  | .local _ .vmem, ⟨8, _⟩ => ⟨S1x128x8, .f32⟩
  | .local _ .vmem, ⟨9, _⟩ => ⟨S1x128x8, .f32⟩
  | .local _ .vmem, ⟨10, _⟩ => ⟨S1x1x128, .f32⟩
  | .local _ .vmem, ⟨11, _⟩ => ⟨S1x1x128, .f32⟩
  | .local _ .vmem, ⟨12, _⟩ => ⟨S5000x128, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1000000x64_S500000x128 : S1000000x64.ShapeCasts S500000x128
  shapeCasts_S1000000_S500000x2 : S1000000.ShapeCasts S500000x2
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  inb_S1x128x8_S1x128x8_0_0_0 : ∀ a, (![0, 0, 0] : Fin 3 → Nat) a + S1x128x8.size a ≤ S1x128x8.size a
  h_S1x128x8 : 0 < S1x128x8.numel
  shapeCasts_S1x128x8_S128x8 : S1x128x8.ShapeCasts S128x8
  shapeCasts_S128x8_S1x128x8 : S128x8.ShapeCasts S1x128x8
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  iota_S5000x128_d1_w32 : S5000x128.Iotas .tc 32 [1]
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  reduces_S5000x1_S1 : S5000x1.Reduces [0] S1
  shapeCasts_S1_S1x1 : S1.ShapeCasts S1x1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  shapeCasts_S5000x1_S5000x1 : S5000x1.ShapeCasts S5000x1
  broadcasts_S5000x1_S5000x128 : S5000x1.Broadcasts S5000x128
  natLt_1_32 : 1 < 32
  bitsLt_bf16_f32 : FTy.bits .bf16 < FTy.bits .f32
  slices_S5000x128_o0_0_S5000x64 : S5000x128.Slices ![0, 0] S5000x64
  slices_S5000x128_o0_64_S5000x64 : S5000x128.Slices ![0, 64] S5000x64
  iota_S1x128_d1_w32 : S1x128.Iotas .tc 32 [1]
  shapeCasts_S1x1_S1x1 : S1x1.ShapeCasts S1x1
  broadcasts_S1x1_S1x128 : S1x1.Broadcasts S1x128
  reducesTo_S2x128x64_S128x64_d0 : S2x128x64.ReducesTo [0] S128x64
  h_S_ : 0 < S_.numel
  reducesTo_S2x128x8_S128x8_d0 : S2x128x8.ReducesTo [0] S128x8
  reducesTo_S2x1x128_S1x128_d0 : S2x1x128.ReducesTo [0] S1x128
  slices_S1x128_S1x1_0_0 : S1x128.Slices ![0, 0] S1x1
  shapeCasts_S1x1_S_ : S1x1.ShapeCasts S_
  slices_S1x128_S1x1_0_1 : S1x128.Slices ![0, 1] S1x1
  pads_S100x64_S128x64_0280_000 : S100x64.Pads (![0, 0] : Fin 2 → Nat) ![28, 0] ![0, 0] S128x64
  reducesTo_S128x64_S_d0_1 : S128x64.ReducesTo [0, 1] S_
  reducesTo_S128x64_S128_d1 : S128x64.ReducesTo [1] S128
  slices_S128x8_S128x1_0_0 : S128x8.Slices ![0, 0] S128x1
  shapeCasts_S128x1_S128 : S128x1.ShapeCasts S128
  reducesTo_S128_S_d0 : S128.ReducesTo [0] S_
  dot_S5000x128_S5000x64_S128x64_0_0_1_1_n_n_wf : DotDims.WF S5000x128 S5000x64 S128x64 [0] [0] [1] [1] [] []
  dot_S5000x128_S5000x8_S128x8_0_0_1_1_n_n_wf : DotDims.WF S5000x128 S5000x8 S128x8 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S500000x2.size a
  hwx0_2 : ∀ i : grid0.Coords, EltTy.bits .i32 = 32 ∨ (Rect.block (s := S500000x2) S5000x2.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S2x128x64.size a
  hwx0_3 : ∀ i : grid0.Coords, EltTy.bits .f32 = 32 ∨ (Rect.block (s := S2x128x64) S1x128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x8.size a ≤ S2x128x8.size a
  hwx0_4 : ∀ i : grid0.Coords, EltTy.bits .f32 = 32 ∨ (Rect.block (s := S2x128x8) S1x128x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S5000x128_S5000x8_S128x8_0_0_1_1_n_n : DotDims S5000x128 S5000x8 S128x8 where
  lhsContracting := [0]
  rhsContracting := [0]
  lhsNonContracting := [1]
  rhsNonContracting := [1]
  lhsBatch := []
  rhsBatch := []
  wf := dot_S5000x128_S5000x8_S128x8_0_0_1_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x128x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x128x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S100x64 : Shape := ⟨2, ![100, 64]⟩
abbrev S_ : Shape := ⟨0, ![]⟩
abbrev S1000000x1 : Shape := ⟨2, ![1000000, 1]⟩

abbrev nBuf : Space → Nat
  | .hbm => 26
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000, .i32⟩
  | .hbm, ⟨3, _⟩ => ⟨S100x64, .f32⟩
  | .hbm, ⟨4, _⟩ => ⟨S1000000x64, .f32⟩
  | .hbm, ⟨5, _⟩ => ⟨S1000000x64, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  reducesTo_S1000000x64_S_d0_1 : S1000000x64.ReducesTo [0, 1] S_
  h_S_ : 0 < S_.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  gather_S100x64_S1000000x1_S1000000x64_1_0_n_n_0_1_164_wf : GatherDims.WF S100x64 S1000000x1 S1000000x64 [1] [0] [] [0] [] 1 ![1, 64]

variable [Facts₀]

def gather_S100x64_S1000000x1_S1000000x64_1_0_n_n_0_1_164 : GatherDims S100x64 S1000000x1 S1000000x64 where
  offsetDims := [1]
  collapsedSliceDims := [0]
  operandBatchingDims := []
  startIndicesBatchingDims := []
  startIndexMap := [0]
  indexVectorDim := 1
  sliceSizes := ![1, 64]
  wf := gather_S100x64_S1000000x1_S1000000x64_1_0_n_n_0_1_164_wf

class Facts : Prop extends Facts₀ where

variable [Facts]
-- ==== Proof.Spec.lean ====
/-
  The mathematics of the clustering loss, stated once for both programs.

  Inputs: a reconstruction `R` and data `X`, each 1000000 rows of 64 numbers; an assignment `A` of a cluster id to
  every row; a table `C` of 100 centres of 64 numbers.  The reference computes
      recon   = Σ_{n,d} (R n d − X n d)²,      cluster = Σ_{n,d} (X n d − C (A n) d)².
  The kernel walks the rows two at a time: packed row `p` holds original rows `2p` and `2p+1` side by side in 128
  lanes, and the 500000 packed rows are cut into 100 blocks of 5000, fifty blocks for each of two halves.  Per half it
  accumulates (a) the 128 × 64 segment sums  Σ_rows [A row = k] · X row d  (a one-hot matrix product), (b) the
  per-cluster counts, (c) the two scalar totals Σ (R − X)² and Σ X²; afterwards the two halves are added and
      cluster = Σ X² − 2 · Σ_{k,d} C k d · seg k d + Σ_k count k · Σ_d (C k d)²
  with the table padded by zero rows to 128 clusters.  This file states those quantities; nothing is proved here.
-/
import Idealize.ShloMosaic.PureOps.Ideal
import Idealize.ShloMosaic.Lib.ValueIdx

noncomputable section

open scoped BigOperators

namespace Cert.Spec

open Idealize.ShloMosaic Idealize.ShloMosaic.ValueIdx

/-- The shapes of the four inputs and of the kernel's three accumulator arrays. -/
abbrev SRows : Shape := ⟨2, ![1000000, 64]⟩
abbrev SIds : Shape := ⟨1, ![1000000]⟩
abbrev STab : Shape := ⟨2, ![100, 64]⟩
abbrev SSeg : Shape := ⟨3, ![2, 128, 64]⟩
abbrev SCnt : Shape := ⟨3, ![2, 128, 8]⟩
abbrev SSca : Shape := ⟨3, ![2, 1, 128]⟩

/-! ## Rows, packed rows, lanes -/

/-- Packed row `ρ` of the block at step `s` of half `q`. -/
def prow (q : Fin 2) (s : Fin 50) (ρ : Fin 5000) : Fin 500000 :=
  ⟨5000 * (50 * q.val + s.val) + ρ.val, by have := q.isLt; have := s.isLt; have := ρ.isLt; omega⟩

/-- The original row in half `h` of packed row `p`. -/
def orow (p : Fin 500000) (h : Fin 2) : Fin 1000000 :=
  ⟨2 * p.val + h.val, by have := p.isLt; have := h.isLt; omega⟩

/-- A lane of a packed row is a half and a column, -/
def lhalf (l : Fin 128) : Fin 2 := ⟨l.val / 64, by have := l.isLt; omega⟩
def lcol (l : Fin 128) : Fin 64 := ⟨l.val % 64, by have := l.isLt; omega⟩
/-- and column `d` sits at lane `d` of the first half and lane `64 + d` of the second. -/
def lo (d : Fin 64) : Fin 128 := ⟨d.val, by have := d.isLt; omega⟩
def hi (d : Fin 64) : Fin 128 := ⟨64 + d.val, by have := d.isLt; omega⟩

/-- A 1000000 × 64 array seen as 500000 packed rows of 128 lanes. -/
def pk (X : SRows.Idx → EReal) (p : Fin 500000) (l : Fin 128) : EReal := X (ix2 (orow p (lhalf l)) (lcol l))
/-- The assignments seen as 500000 pairs. -/
def pkA (A : SIds.Idx → BitVec 32) (p : Fin 500000) (h : Fin 2) : BitVec 32 := A (ix1 (orow p h))

/-- The one-hot entry: `1` when the id is the column's number, else `0`. -/
def oh (a : BitVec 32) (k : Fin 128) : EReal := if a = BitVec.ofNat 32 k.val then 1 else 0

/-- One lane of the scalar accumulator's addend: lane 0 carries `u`, lane 1 carries `v`, the others nothing. -/
def lane (l : Fin 128) (u v : EReal) : EReal := if l.val = 0 then u else if l.val = 1 then v else 0

/-! ## What the kernel's three accumulator arrays hold after the grid -/

/-- One block's segment sums: the two packed halves' one-hot products. -/
def seg1 (X : SRows.Idx → EReal) (A : SIds.Idx → BitVec 32) (q : Fin 2) (s : Fin 50) (k : Fin 128) (d : Fin 64) : EReal :=
  (∑ ρ : Fin 5000, oh (pkA A (prow q s ρ) 0) k * pk X (prow q s ρ) (lo d))
    + (∑ ρ : Fin 5000, oh (pkA A (prow q s ρ) 1) k * pk X (prow q s ρ) (hi d))

/-- One block's counts. -/
def cnt1 (A : SIds.Idx → BitVec 32) (q : Fin 2) (s : Fin 50) (k : Fin 128) : EReal :=
  (∑ ρ : Fin 5000, oh (pkA A (prow q s ρ) 0) k * 1) + (∑ ρ : Fin 5000, oh (pkA A (prow q s ρ) 1) k * 1)

/-- One block's squared reconstruction error and squared norm. -/
def err1 (R X : SRows.Idx → EReal) (q : Fin 2) (s : Fin 50) : EReal :=
  ∑ ρ : Fin 5000, ∑ l : Fin 128, (pk R (prow q s ρ) l - pk X (prow q s ρ) l) * (pk R (prow q s ρ) l - pk X (prow q s ρ) l)
def nrm1 (X : SRows.Idx → EReal) (q : Fin 2) (s : Fin 50) : EReal :=
  ∑ ρ : Fin 5000, ∑ l : Fin 128, pk X (prow q s ρ) l * pk X (prow q s ρ) l

/-- Half `q`'s three accumulators after its fifty blocks. -/
def S3 (X : SRows.Idx → EReal) (A : SIds.Idx → BitVec 32) (q : Fin 2) (k : Fin 128) (d : Fin 64) : EReal :=
  ∑ s : Fin 50, seg1 X A q s k d
def S4 (A : SIds.Idx → BitVec 32) (q : Fin 2) (k : Fin 128) : EReal := ∑ s : Fin 50, cnt1 A q s k
def S5 (R X : SRows.Idx → EReal) (q : Fin 2) (l : Fin 128) : EReal := ∑ s : Fin 50, lane l (err1 R X q s) (nrm1 X q s)

/-! ## What the host computes from those arrays -/

/-- The constants the two programs spell: `+0.0`, `1.0`, `2.0`. -/
abbrev zero : EReal := Ideal.ofBits .f32 0x00000000#32
abbrev one : EReal := Ideal.ofBits .f32 0x3F800000#32
abbrev two : EReal := Ideal.ofBits .f32 0x40000000#32

/-- The centres padded by zero rows to 128 clusters. -/
def Cpad (C : STab.Idx → EReal) (k : Fin 128) (d : Fin 64) : EReal :=
  if h : k.val < 100 then C (ix2 (⟨k.val, h⟩ : Fin 100) d) else zero

def Kseg (a3 : SSeg.Idx → EReal) (k : Fin 128) (d : Fin 64) : EReal := zero + ∑ q : Fin 2, a3 (ix3 q k d)
def Kcnt (a4 : SCnt.Idx → EReal) (k : Fin 128) : EReal := zero + ∑ q : Fin 2, a4 (ix3 q k (0 : Fin 8))
def Ksca (a5 : SSca.Idx → EReal) (l : Fin 128) : EReal := zero + ∑ q : Fin 2, a5 (ix3 q (0 : Fin 1) l)
def Kcross (a3 : SSeg.Idx → EReal) (C : STab.Idx → EReal) : EReal :=
  zero + ∑ k : Fin 128, ∑ d : Fin 64, Cpad C k d * Kseg a3 k d
def Knorm (C : STab.Idx → EReal) (k : Fin 128) : EReal := zero + ∑ d : Fin 64, Cpad C k d * Cpad C k d
def Kquad (a4 : SCnt.Idx → EReal) (C : STab.Idx → EReal) : EReal := zero + ∑ k : Fin 128, Kcnt a4 k * Knorm C k

/-- The kernel program's three results, from the three arrays and the centres. -/
def Krecon (a5 : SSca.Idx → EReal) : EReal := Ksca a5 0
def Kcluster (a3 : SSeg.Idx → EReal) (a4 : SCnt.Idx → EReal) (a5 : SSca.Idx → EReal) (C : STab.Idx → EReal) : EReal :=
  Ksca a5 1 - two * Kcross a3 C + Kquad a4 C
def Ktotal (a3 : SSeg.Idx → EReal) (a4 : SCnt.Idx → EReal) (a5 : SSca.Idx → EReal) (C : STab.Idx → EReal) : EReal :=
  one * Krecon a5 + one * Kcluster a3 a4 a5 C

/-! ## The reference -/

/-- The row of the table the reference reads for id `a`: a negative id counts from the end, and the result is
    clamped into the table. -/
def gidx (a : BitVec 32) : Fin 100 :=
  ⟨min (if a.toInt < 0 then a + 100#32 else a).toInt.toNat 99, by omega⟩

def Rrecon (R X : SRows.Idx → EReal) : EReal := zero + ∑ j : SRows.Idx, (R j - X j) * (R j - X j)
def Rcluster (X : SRows.Idx → EReal) (A : SIds.Idx → BitVec 32) (C : STab.Idx → EReal) : EReal :=
  zero + ∑ j : SRows.Idx, (X j - C (ix2 (gidx (A (ix1 (⟨(j 0).val, (j 0).isLt⟩ : Fin 1000000)))) (⟨(j 1).val, (j 1).isLt⟩ : Fin 64)))
    * (X j - C (ix2 (gidx (A (ix1 (⟨(j 0).val, (j 0).isLt⟩ : Fin 1000000)))) (⟨(j 1).val, (j 1).isLt⟩ : Fin 64)))
def Rtotal (R X : SRows.Idx → EReal) (A : SIds.Idx → BitVec 32) (C : STab.Idx → EReal) : EReal :=
  one * Rrecon R X + one * Rcluster X A C

/-! ## The domain -/

/-- Every entry a real number. -/
def Finite {S : Shape} (X : S.Idx → EReal) : Prop := ∀ j, ∃ r : ℝ, X j = (r : EReal)
/-- Every id a cluster's number. -/
def InRange (A : SIds.Idx → BitVec 32) : Prop := ∀ j, 0 ≤ (A j).toInt ∧ (A j).toInt < 100

end Cert.Spec

end
-- ==== Proof.Algebra.lean ====
/-
  The two programs compute the same three numbers.

  (i) The reconstruction error: the kernel's total over halves, blocks, packed rows and lanes of (R − X)² is the
  reference's total over rows and columns, because (half, block, packed row, lane) ↦ (row, column) is a bijection
  — sums of extended reals may be regrouped and reordered freely.
  (ii) The cluster loss: with every entry real and every id a cluster's number,
      Σ_{n,d} (X n d − C (A n) d)² = Σ X² − 2 · Σ_{k,d} C k d · (Σ_n [A n = k] · X n d) + Σ_k #{n : A n = k} · Σ_d (C k d)²,
  by expanding the square and exchanging the sums; the padded clusters 100 … 127 contribute nothing.
-/
import proofs.«413849_j7507602833888_3_alg».proof.Proof.Spec

noncomputable section

open scoped BigOperators

namespace Cert.Spec

open Idealize.ShloMosaic Idealize.ShloMosaic.ValueIdx

/-- The three accumulator arrays as functions of an index. -/
def A3 (X : SRows.Idx → EReal) (A : SIds.Idx → BitVec 32) : SSeg.Idx → EReal :=
  fun i => S3 X A ⟨(i 0).val, (i 0).isLt⟩ ⟨(i 1).val, (i 1).isLt⟩ ⟨(i 2).val, (i 2).isLt⟩
def A4 (A : SIds.Idx → BitVec 32) : SCnt.Idx → EReal :=
  fun i => S4 A ⟨(i 0).val, (i 0).isLt⟩ ⟨(i 1).val, (i 1).isLt⟩
def A5 (R X : SRows.Idx → EReal) : SSca.Idx → EReal :=
  fun i => S5 R X ⟨(i 0).val, (i 0).isLt⟩ ⟨(i 2).val, (i 2).isLt⟩

theorem A3_apply (X : SRows.Idx → EReal) (A : SIds.Idx → BitVec 32) (q : Fin 2) (k : Fin 128) (d : Fin 64) :
    A3 X A (ix3 q k d) = S3 X A q k d := rfl
theorem A4_apply (A : SIds.Idx → BitVec 32) (q : Fin 2) (k : Fin 128) (j : Fin 8) : A4 A (ix3 q k j) = S4 A q k := rfl
theorem A5_apply (R X : SRows.Idx → EReal) (q : Fin 2) (l : Fin 128) : A5 R X (ix3 q (0 : Fin 1) l) = S5 R X q l := rfl

namespace Alg

/-! ## Regrouping rows and lanes -/

/-- (half, block, packed row, side) ↦ original row 2·(5000·(50q+s)+ρ)+h is a bijection onto the 1000000 rows. -/
def rowEquiv : Fin 2 × Fin 50 × Fin 5000 × Fin 2 ≃ Fin 1000000 where
  toFun x := orow (prow x.1 x.2.1 x.2.2.1) x.2.2.2
  invFun n := (⟨n.val / 500000, by have := n.isLt; omega⟩, ⟨n.val / 10000 % 50, by omega⟩,
    ⟨n.val / 2 % 5000, by omega⟩, ⟨n.val % 2, by omega⟩)
  left_inv := by
    rintro ⟨q, s, ρ, h⟩
    have := q.isLt; have := s.isLt; have := ρ.isLt; have := h.isLt
    simp only [orow, prow, Prod.mk.injEq, Fin.ext_iff]
    omega
  right_inv := by
    intro n
    have := n.isLt
    simp only [orow, prow, Fin.ext_iff]
    omega

/-- (side, column) ↦ lane 64·h + d is a bijection onto the 128 lanes, with inverse (lhalf, lcol). -/
def laneEquiv : Fin 2 × Fin 64 ≃ Fin 128 where
  toFun x := ⟨64 * x.1.val + x.2.val, by have := x.1.isLt; have := x.2.isLt; omega⟩
  invFun l := (lhalf l, lcol l)
  left_inv := by
    rintro ⟨h, d⟩
    have := h.isLt; have := d.isLt
    simp only [lhalf, lcol, Prod.mk.injEq, Fin.ext_iff]
    omega
  right_inv := by
    intro l
    have := l.isLt
    simp only [lhalf, lcol, Fin.ext_iff]
    omega

/-- A sum over all rows, walked by half, block, packed row and side. -/
theorem sum_rows {M : Type*} [AddCommMonoid M] (g : Fin 1000000 → M) :
    ∑ q : Fin 2, ∑ s : Fin 50, ∑ ρ : Fin 5000, ∑ h : Fin 2, g (orow (prow q s ρ) h) = ∑ n, g n := by
  rw [← Equiv.sum_comp rowEquiv g]
  simp only [Fintype.sum_prod_type]
  rfl

/-- A sum over the 128 lanes is the sum over sides and columns. -/
theorem sum_lanes {M : Type*} [AddCommMonoid M] (F : Fin 2 → Fin 64 → M) :
    ∑ l : Fin 128, F (lhalf l) (lcol l) = ∑ h : Fin 2, ∑ d : Fin 64, F h d := by
  rw [← Equiv.sum_comp laneEquiv (fun l => F (lhalf l) (lcol l)), Fintype.sum_prod_type]
  refine Finset.sum_congr rfl fun h _ => Finset.sum_congr rfl fun d _ => ?_
  have e : laneEquiv.symm (laneEquiv (h, d)) = (h, d) := laneEquiv.symm_apply_apply _
  have e1 : lhalf (laneEquiv (h, d)) = h := congrArg Prod.fst e
  have e2 : lcol (laneEquiv (h, d)) = d := congrArg Prod.snd e
  rw [e1, e2]

/-- The regrouping used throughout: a sum over rows and columns, walked by half, block, packed row and lane. -/
theorem sum_regroup {M : Type*} [AddCommMonoid M] (f : Fin 1000000 → Fin 64 → M) :
    ∑ q : Fin 2, ∑ s : Fin 50, ∑ ρ : Fin 5000, ∑ l : Fin 128, f (orow (prow q s ρ) (lhalf l)) (lcol l)
      = ∑ n, ∑ d, f n d := by
  rw [← sum_rows (fun n => ∑ d, f n d)]
  refine Finset.sum_congr rfl fun q _ => Finset.sum_congr rfl fun s _ => Finset.sum_congr rfl fun ρ _ => ?_
  exact sum_lanes (fun h d => f (orow (prow q s ρ) h) d)

/-- The same for a quantity per row, the two sides of a packed row summed separately. -/
theorem sum_sides {M : Type*} [AddCommMonoid M] (g : Fin 1000000 → M) :
    ∑ q : Fin 2, ∑ s : Fin 50, ((∑ ρ : Fin 5000, g (orow (prow q s ρ) 0)) + ∑ ρ : Fin 5000, g (orow (prow q s ρ) 1))
      = ∑ n, g n := by
  rw [← sum_rows g]
  refine Finset.sum_congr rfl fun q _ => Finset.sum_congr rfl fun s _ => ?_
  rw [← Finset.sum_add_distrib]
  refine Finset.sum_congr rfl fun ρ _ => ?_
  rw [Fin.sum_univ_two]

/-- The two lanes of column d of a packed row are the two original rows' entries. -/
theorem pk_lo (X : SRows.Idx → EReal) (p : Fin 500000) (d : Fin 64) : pk X p (lo d) = X (ix2 (orow p 0) d) := by
  have h1 : lhalf (lo d) = 0 := by
    have := d.isLt; simp only [lhalf, lo, Fin.ext_iff]; show d.val / 64 = 0; omega
  have h2 : lcol (lo d) = d := by
    have := d.isLt; simp only [lcol, lo, Fin.ext_iff]; omega
  unfold pk; rw [h1, h2]
theorem pk_hi (X : SRows.Idx → EReal) (p : Fin 500000) (d : Fin 64) : pk X p (hi d) = X (ix2 (orow p 1) d) := by
  have h1 : lhalf (hi d) = 1 := by
    have := d.isLt; simp only [lhalf, hi, Fin.ext_iff]; show (64 + d.val) / 64 = 1; omega
  have h2 : lcol (hi d) = d := by
    have := d.isLt; simp only [lcol, hi, Fin.ext_iff]; omega
  unfold pk; rw [h1, h2]

/-! ## The constants -/

theorem zero_eq : zero = 0 := by simp [zero, Ideal.ofBits, Ideal.ieee]
theorem one_eq : one = 1 := by
  simp [one, Ideal.ofBits, Ideal.ieee, -EReal.coe_mul]; norm_num
theorem two_eq : two = ((2 : ℝ) : EReal) := by
  simp [two, Ideal.ofBits, Ideal.ieee, -EReal.coe_mul]; norm_num

/-! ## The three accumulators in closed form -/

theorem lane_zero (u v : EReal) : lane 0 u v = u := by simp [lane]
theorem lane_one (u v : EReal) : lane 1 u v = v := by simp [lane]

/-- Lane 0 of the scalar accumulator after the grid: the squared error over all rows and columns. -/
theorem Ksca_zero (R X : SRows.Idx → EReal) :
    Ksca (A5 R X) 0 = zero + ∑ n : Fin 1000000, ∑ d : Fin 64,
      (R (ix2 n d) - X (ix2 n d)) * (R (ix2 n d) - X (ix2 n d)) := by
  unfold Ksca
  simp only [A5_apply, S5, lane_zero, err1, pk]
  rw [← sum_regroup (fun n d => (R (ix2 n d) - X (ix2 n d)) * (R (ix2 n d) - X (ix2 n d)))]

/-- Lane 1 of the scalar accumulator after the grid: the squared norm of the data. -/
theorem Ksca_one (R X : SRows.Idx → EReal) :
    Ksca (A5 R X) 1 = zero + ∑ n : Fin 1000000, ∑ d : Fin 64, X (ix2 n d) * X (ix2 n d) := by
  unfold Ksca
  simp only [A5_apply, S5, lane_one, nrm1, pk]
  rw [← sum_regroup (fun n d => X (ix2 n d) * X (ix2 n d))]

/-- The segment sums after the grid: for every cluster and column, the one-hot weighted sum over all rows. -/
theorem Kseg_eq (X : SRows.Idx → EReal) (A : SIds.Idx → BitVec 32) (k : Fin 128) (d : Fin 64) :
    Kseg (A3 X A) k d = zero + ∑ n : Fin 1000000, oh (A (ix1 n)) k * X (ix2 n d) := by
  unfold Kseg
  simp only [A3_apply, S3, seg1, pkA, pk_lo, pk_hi]
  rw [sum_sides (fun n => oh (A (ix1 n)) k * X (ix2 n d))]

/-- The counts after the grid. -/
theorem Kcnt_eq (A : SIds.Idx → BitVec 32) (k : Fin 128) :
    Kcnt (A4 A) k = zero + ∑ n : Fin 1000000, oh (A (ix1 n)) k * 1 := by
  unfold Kcnt
  simp only [A4_apply, S4, cnt1, pkA]
  rw [sum_sides (fun n => oh (A (ix1 n)) k * 1)]

/-! ## Ids in range -/

/-- A 32-bit id that is nonnegative as a signed number is its unsigned value. -/
theorem toInt_eq_toNat_of_nonneg (a : BitVec 32) (h0 : 0 ≤ a.toInt) : a.toInt = (a.toNat : Int) := by
  rw [BitVec.toInt_eq_toNat_cond] at h0 ⊢
  split_ifs at h0 ⊢ with h
  · rfl
  · have := a.isLt; omega

/-- For an id in range the reference reads the table's row of that number. -/
theorem gidx_val (a : BitVec 32) (h0 : 0 ≤ a.toInt) (h1 : a.toInt < 100) : (gidx a).val = a.toNat := by
  have ht := toInt_eq_toNat_of_nonneg a h0
  unfold gidx
  simp only [if_neg (not_lt.mpr h0)]
  rw [ht] at h1 ⊢
  simp only [Int.toNat_natCast]
  omega

/-- The cluster of row n, as one of the 128 padded clusters. -/
def cl (A : SIds.Idx → BitVec 32) (n : Fin 1000000) : Fin 128 :=
  ⟨(gidx (A (ix1 n))).val, by have := (gidx (A (ix1 n))).isLt; omega⟩

/-- For an id in range the one-hot entry is the indicator of the row's cluster. -/
theorem oh_cl (A : SIds.Idx → BitVec 32) (hA : InRange A) (n : Fin 1000000) (k : Fin 128) :
    oh (A (ix1 n)) k = (((if k = cl A n then (1 : ℝ) else 0) : ℝ) : EReal) := by
  obtain ⟨h0, h1⟩ := hA (ix1 n)
  have hg := gidx_val _ h0 h1
  have ht := toInt_eq_toNat_of_nonneg _ h0
  have hk := k.isLt
  have hiff : (A (ix1 n) = BitVec.ofNat 32 k.val) ↔ k = cl A n := by
    rw [← BitVec.toNat_inj, BitVec.toNat_ofNat, Fin.ext_iff]
    show _ ↔ k.val = (gidx (A (ix1 n))).val
    rw [hg]
    omega
  unfold oh
  by_cases hkc : k = cl A n
  · rw [if_pos (hiff.mpr hkc), if_pos hkc]; rfl
  · rw [if_neg (fun h => hkc (hiff.mp h)), if_neg hkc]; rfl

/-! ## Real entries -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The padded centres of a real table. -/
def cpad (c : STab.Idx → ℝ) (k : Fin 128) (d : Fin 64) : ℝ :=
  if h : k.val < 100 then c (ix2 (⟨k.val, h⟩ : Fin 100) d) else 0

theorem Cpad_coe (C : STab.Idx → EReal) (c : STab.Idx → ℝ) (hc : ∀ j, C j = (c j : EReal)) (k : Fin 128) (d : Fin 64) :
    Cpad C k d = (cpad c k d : EReal) := by
  unfold Cpad cpad
  split_ifs with h
  · exact hc _
  · rw [zero_eq, EReal.coe_zero]

theorem cpad_cl (c : STab.Idx → ℝ) (A : SIds.Idx → BitVec 32) (n : Fin 1000000) (d : Fin 64) :
    cpad c (cl A n) d = c (ix2 (gidx (A (ix1 n))) d) := by
  unfold cpad
  rw [dif_pos (show (cl A n).val < 100 from (gidx (A (ix1 n))).isLt)]
  rfl

/-! ## The identity over the reals -/

/-- Expanding the square and summing cluster by cluster: rows N, clusters K, columns D, row n in cluster a n. -/
theorem real_identity {N K D : Type*} [Fintype N] [Fintype K] [DecidableEq K] [Fintype D]
    (x : N → D → ℝ) (cp : K → D → ℝ) (a : N → K) :
    (0 + ∑ n, ∑ d, x n d * x n d)
      - 2 * (0 + ∑ k, ∑ d, cp k d * (0 + ∑ n, (if k = a n then (1 : ℝ) else 0) * x n d))
      + (0 + ∑ k, (0 + ∑ n, (if k = a n then (1 : ℝ) else 0) * 1) * (0 + ∑ d, cp k d * cp k d))
    = 0 + ∑ n, ∑ d, (x n d - cp (a n) d) * (x n d - cp (a n) d) := by
  have hcol : ∀ (g : K → ℝ) (n : N), ∑ k, g k * (if k = a n then (1 : ℝ) else 0) = g (a n) := by
    intro g n
    simp [mul_ite]
  have h1 : ∑ k, ∑ d, cp k d * (0 + ∑ n, (if k = a n then (1 : ℝ) else 0) * x n d)
      = ∑ n, ∑ d, cp (a n) d * x n d := by
    rw [Finset.sum_comm, Finset.sum_comm (f := fun n d => cp (a n) d * x n d)]
    refine Finset.sum_congr rfl fun d _ => ?_
    simp only [zero_add, Finset.mul_sum]
    rw [Finset.sum_comm]
    refine Finset.sum_congr rfl fun n _ => ?_
    rw [← hcol (fun k => cp k d * x n d) n]
    refine Finset.sum_congr rfl fun k _ => ?_
    ring
  have h2 : ∑ k, (0 + ∑ n, (if k = a n then (1 : ℝ) else 0) * 1) * (0 + ∑ d, cp k d * cp k d)
      = ∑ n, ∑ d, cp (a n) d * cp (a n) d := by
    simp only [zero_add, mul_one, Finset.sum_mul]
    rw [Finset.sum_comm]
    refine Finset.sum_congr rfl fun n _ => ?_
    rw [← hcol (fun k => ∑ d, cp k d * cp k d) n]
    refine Finset.sum_congr rfl fun k _ => ?_
    ring
  have h3 : ∀ n d, (x n d - cp (a n) d) * (x n d - cp (a n) d)
      = x n d * x n d - 2 * (cp (a n) d * x n d) + cp (a n) d * cp (a n) d := by
    intro n d; ring
  rw [h1, h2]
  simp only [h3, Finset.sum_add_distrib, Finset.sum_sub_distrib, ← Finset.mul_sum]
  ring

end Alg

open Alg

/-! ## The reconstruction error -/

/-- The reconstruction error: a regrouping of one sum. -/
theorem recon_eq (R X : SRows.Idx → EReal) : Krecon (A5 R X) = Rrecon R X := by
  unfold Krecon Rrecon
  rw [Ksca_zero, sum_idx2]

/-! ## The cluster loss -/

/-- The cluster loss: the expanded square, summed cluster by cluster. -/
theorem cluster_eq (R X : SRows.Idx → EReal) (A : SIds.Idx → BitVec 32) (C : STab.Idx → EReal)
    (hX : Finite X) (hC : Finite C) (hA : InRange A) :
    Kcluster (A3 X A) (A4 A) (A5 R X) C = Rcluster X A C := by
  choose x hx using hX
  choose c hc using hC
  have hKsca : Ksca (A5 R X) 1
      = ((0 + ∑ n : Fin 1000000, ∑ d : Fin 64, x (ix2 n d) * x (ix2 n d) : ℝ) : EReal) := by
    rw [Ksca_one]
    simp only [hx, zero_eq, EReal.coe_add, coe_sum, EReal.coe_mul, EReal.coe_zero]
  have hKseg : ∀ k d, Kseg (A3 X A) k d
      = ((0 + ∑ n : Fin 1000000, (if k = cl A n then (1 : ℝ) else 0) * x (ix2 n d) : ℝ) : EReal) := by
    intro k d
    rw [Kseg_eq]
    simp only [hx, oh_cl A hA, zero_eq, EReal.coe_add, coe_sum, EReal.coe_mul, EReal.coe_zero]
  have hKcnt : ∀ k, Kcnt (A4 A) k
      = ((0 + ∑ n : Fin 1000000, (if k = cl A n then (1 : ℝ) else 0) * 1 : ℝ) : EReal) := by
    intro k
    rw [Kcnt_eq]
    simp only [oh_cl A hA, zero_eq, EReal.coe_add, coe_sum, EReal.coe_mul, EReal.coe_zero, EReal.coe_one]
  have hKnorm : ∀ k, Knorm C k = ((0 + ∑ d : Fin 64, cpad c k d * cpad c k d : ℝ) : EReal) := by
    intro k
    unfold Knorm
    simp only [Cpad_coe C c hc, zero_eq, EReal.coe_add, coe_sum, EReal.coe_mul, EReal.coe_zero]
  have hKcross : Kcross (A3 X A) C
      = ((0 + ∑ k : Fin 128, ∑ d : Fin 64, cpad c k d
          * (0 + ∑ n : Fin 1000000, (if k = cl A n then (1 : ℝ) else 0) * x (ix2 n d)) : ℝ) : EReal) := by
    unfold Kcross
    simp only [hKseg, Cpad_coe C c hc, zero_eq, EReal.coe_add, coe_sum, EReal.coe_mul, EReal.coe_zero]
  have hKquad : Kquad (A4 A) C
      = ((0 + ∑ k : Fin 128, (0 + ∑ n : Fin 1000000, (if k = cl A n then (1 : ℝ) else 0) * 1)
          * (0 + ∑ d : Fin 64, cpad c k d * cpad c k d) : ℝ) : EReal) := by
    unfold Kquad
    simp only [hKcnt, hKnorm, zero_eq, EReal.coe_add, coe_sum, EReal.coe_mul, EReal.coe_zero]
  have hR : Rcluster X A C
      = ((0 + ∑ n : Fin 1000000, ∑ d : Fin 64, (x (ix2 n d) - cpad c (cl A n) d)
          * (x (ix2 n d) - cpad c (cl A n) d) : ℝ) : EReal) := by
    unfold Rcluster
    rw [sum_idx2]
    simp only [EReal.coe_add, coe_sum, EReal.coe_mul, EReal.coe_sub, EReal.coe_zero, zero_eq, cpad_cl]
    refine congrArg (fun t => (0 : EReal) + t) (Finset.sum_congr rfl fun n _ => Finset.sum_congr rfl fun d _ => ?_)
    show (X (ix2 n d) - C (ix2 (gidx (A (ix1 n))) d)) * (X (ix2 n d) - C (ix2 (gidx (A (ix1 n))) d)) = _
    rw [hx, hc]
  unfold Kcluster
  rw [hKsca, hKcross, hKquad, hR, two_eq, ← EReal.coe_mul, ← EReal.coe_sub, ← EReal.coe_add]
  exact congrArg _ (real_identity (fun n d => x (ix2 n d)) (cpad c) (cl A))

/-- So the total agrees too. -/
theorem total_eq (R X : SRows.Idx → EReal) (A : SIds.Idx → BitVec 32) (C : STab.Idx → EReal)
    (hX : Finite X) (hC : Finite C) (hA : InRange A) :
    Ktotal (A3 X A) (A4 A) (A5 R X) C = Rtotal R X A C := by
  unfold Ktotal Rtotal
  rw [recon_eq, cluster_eq R X A C hX hC hA]

end Cert.Spec

end
-- ==== Proof.PreFacts.lean ====
/-
  What the precondition says of the four inputs: every entry of the two data arrays and of the table of centres is a
  real number (its absolute value is below +∞), and every cluster id lies in 0 … 99.
-/
import proofs.«413849_j7507602833888_3_alg».proof.Proof.Spec
import proofs.«413849_j7507602833888_3_alg».proof.Pre_finite_inputs
import Idealize.ShloMosaic.Lib.ReduceAll
import Idealize.ShloMosaic.Lib.StableHlo.Predicate

noncomputable section

namespace Cert.PreFacts

open Idealize.ShloMosaic Idealize.ShloMosaic.ValueIdx

/-- The scalar shape has one index. -/
private instance subsingleton_scalar_idx : Subsingleton Cert.Pre_finite_inputs.S_.Idx :=
  ⟨fun _ _ => funext fun d => d.elim0⟩

/-- The pattern 0x7F800000 denotes +∞. -/
private theorem ofBits_inf : Ideal.ofBits .f32 0x7F800000#32 = (⊤ : EReal) := by
  simp [Ideal.ofBits, Ideal.ieee]

/-- An extended real whose absolute value is strictly below +∞ is a real number: for −∞ and +∞ the absolute value
    is +∞ itself. -/
private theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One `all(|x| < +∞)`: if the conjunction over all entries is 1 then every entry is a real number. -/
private theorem finite_of_all {S : Shape} {axes : List (Fin S.rank)}
    (hb : Cert.Pre_finite_inputs.S_.BroadcastsInDim S (![] : Fin 0 → Fin S.rank))
    (hr : S.ReducesTo axes Cert.Pre_finite_inputs.S_) (h0 : 0 < Cert.Pre_finite_inputs.S_.numel)
    (x : FVec Ideal S .f32)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr h0 ix0 = 1#1) :
    Cert.Spec.Finite x := by
  intro j
  have hj := Host.reduce_andi_all _ _ hr h0 ix0 e j
  exact real_of_abs_lt_top (x j) hj

/-- One `all((a ≥ 0) & (a < 100))`: if the conjunction over all ids is 1 then every id lies in 0 … 99. -/
private theorem inRange_of_all {axes : List (Fin Cert.Pre_finite_inputs.S1000000.rank)}
    (hb : Cert.Pre_finite_inputs.S_.BroadcastsInDim Cert.Pre_finite_inputs.S1000000
      (![] : Fin 0 → Fin Cert.Pre_finite_inputs.S1000000.rank))
    (hr : Cert.Pre_finite_inputs.S1000000.ReducesTo axes Cert.Pre_finite_inputs.S_)
    (h0 : 0 < Cert.Pre_finite_inputs.S_.numel)
    (a : IVec Cert.Pre_finite_inputs.S1000000 32)
    (e : Host.reduce IntOp.andi
          (andi (cmpi .sge a (broadcastInDim Cert.Pre_finite_inputs.S1000000 ![] hb (constantI Cert.Pre_finite_inputs.S_ 32 0#32)))
            (cmpi .slt a (broadcastInDim Cert.Pre_finite_inputs.S1000000 ![] hb (constantI Cert.Pre_finite_inputs.S_ 32 100#32))))
          (constantI Cert.Pre_finite_inputs.S_ 1 1#1) hr h0 ix0 = 1#1) :
    Cert.Spec.InRange a := by
  intro j
  have hj := Host.reduce_andi_all _ _ hr h0 ix0 e j
  obtain ⟨hge, hlt⟩ := IntOp.andi_eq_one.1 hj
  have hge' : (0#32 : BitVec 32).toInt ≤ (a j).toInt := IntOp.cmpi_sge.1 hge
  have hlt' : (a j).toInt < (100#32 : BitVec 32).toInt := IntOp.cmpi_slt.1 hlt
  rw [show (0#32 : BitVec 32).toInt = 0 from by decide] at hge'
  rw [show (100#32 : BitVec 32).toInt = 100 from by decide] at hlt'
  exact ⟨hge', hlt'⟩

/-- The precondition, all ones, unfolded into the four facts the value proof uses. -/
theorem of_pre [Cert.Pre_finite_inputs.Facts]
    (x0 x1 : FVec Ideal Cert.Pre_finite_inputs.S1000000x64 .f32) (x2 : IVec Cert.Pre_finite_inputs.S1000000 32)
    (x3 : FVec Ideal Cert.Pre_finite_inputs.S100x64 .f32)
    (h : Cert.Pre_finite_inputs.fn (F := Ideal) x0 x1 x2 x3 = fun _ => 1#1) :
    Cert.Spec.Finite x0 ∧ Cert.Spec.Finite x1 ∧ Cert.Spec.InRange x2 ∧ Cert.Spec.Finite x3 := by
  have h' := congrFun h ix0
  dsimp only [Cert.Pre_finite_inputs.fn, Cert.Pre_finite_inputs.fn_part1] at h'
  obtain ⟨h013, h2⟩ := IntOp.andi_eq_one.1 h'
  obtain ⟨h01, h3⟩ := IntOp.andi_eq_one.1 h013
  obtain ⟨h0, h1⟩ := IntOp.andi_eq_one.1 h01
  exact ⟨finite_of_all _ _ _ x0 h0, finite_of_all _ _ _ x1 h1, inRange_of_all _ _ _ x2 h2, finite_of_all _ _ _ x3 h3⟩

end Cert.PreFacts

end
-- ==== Proof.RefValue.lean ====
/-
  What the reference computes, as extended reals: the three results of its host program read at their one index.
  The total squared error is the zero it starts from plus the sum over every row and column; the gathered centre of
  a row is the table's row at the row's id (a negative id counted from the end, then clamped into the table).
-/
import proofs.«413849_j7507602833888_3_alg».proof.Proof.Spec
import proofs.«413849_j7507602833888_3_alg».proof.Proof.Gen.ReferenceIdeal.Read
import Idealize.ShloMosaic.Lib.Affine

noncomputable section

open scoped BigOperators

namespace Cert.ReferenceIdeal.RefValue

open Cert.ReferenceIdeal Cert.ReferenceIdeal.Gen Idealize.ShloMosaic Idealize.ShloMosaic.ValueIdx

/-- The id the reference looks up for row `n`: the row's own id when it is not negative, and the id plus the
    table's 100 rows when it is (a signed comparison with zero chooses between the two). -/
theorem lookup_id (x2 : (⟨S1000000, .i32⟩ : BufTy).Contents (Elt Ideal)) (n : Fin 1000000) :
    Read.val_main_v7 (F := Ideal) x2 (ix1 n)
      = if (x2 (ix1 n)).toInt < 0 then x2 (ix1 n) + 100#32 else x2 (ix1 n) := by
  rw [Read.val_main_v7_apply, Read.val_main_v4_apply, Read.val_main_v6_apply, Read.val_main_v3_apply,
    Read.val_main_v5_apply, Read.val_main_c_apply, Read.val_main_c_0_apply]
  by_cases h : (x2 (ix1 n)).toInt < 0
  · -- the comparison's word is one exactly when the id is negative as a signed integer
    have hc : IntOp.cmpi .slt (x2 (ix1 n)) 0#32 = 1#1 := IntOp.cmpi_slt.2 h
    rw [if_pos h, hc, select_one]; rfl
  · have hc : ¬ IntOp.cmpi .slt (x2 (ix1 n)) 0#32 = 1#1 := fun e => h (IntOp.cmpi_slt.1 e)
    rw [if_neg h]
    exact if_neg hc

/-- The gathered centres at (row, column): the table's row `gidx` of the row's id. -/
theorem gather_apply (x2 : (⟨S1000000, .i32⟩ : BufTy).Contents (Elt Ideal)) (x3 : (⟨S100x64, .f32⟩ : BufTy).Contents (Elt Ideal))
    (n : Fin 1000000) (d : Fin 64) :
    Read.val_main_v9 (F := Ideal) x2 x3 (ix2 n d) = x3 (ix2 (Cert.Spec.gidx (x2 (ix1 n))) d) := by
  -- the gather reads the table at its operand index; two indices are equal when their coordinates are
  unfold Read.val_main_v9 Host.gather
  congr 1
  funext a
  refine Fin.ext ?_
  have hb : ∀ a : Fin S100x64.rank, a ∉ gather_S100x64_S1000000x1_S1000000x64_1_0_n_n_0_1_164.operandBatchingDims := fun a => List.not_mem_nil
  match a with
  | ⟨0, _⟩ =>
    -- the table's row axis is collapsed and start-indexed: no batch or offset coordinate, and the start is the
    -- looked-up id read signed and clamped into [0, 100 − 1]
    have hk : (0 : Fin S100x64.rank) ∉ gather_S100x64_S1000000x1_S1000000x64_1_0_n_n_0_1_164.sKept := fun h =>
      ((GatherDims.mem_sKept _ _).mp h).1 (List.mem_singleton.mpr rfl)
    have hm : (0 : Fin S100x64.rank) ∈ gather_S100x64_S1000000x1_S1000000x64_1_0_n_n_0_1_164.startIndexMap := List.mem_singleton.mpr rfl
    show gather_S100x64_S1000000x1_S1000000x64_1_0_n_n_0_1_164.start (ix2 n d) (Read.val_main_v8 (F := Ideal) x2) 0
      + gather_S100x64_S1000000x1_S1000000x64_1_0_n_n_0_1_164.batchCoord (ix2 n d) 0 + gather_S100x64_S1000000x1_S1000000x64_1_0_n_n_0_1_164.offCoord (ix2 n d) 0 = _
    rw [GatherDims.batchCoord_eq_zero _ _ _ (hb 0), GatherDims.offCoord_eq_zero _ _ _ hk]
    simp only [Nat.add_zero]
    unfold GatherDims.start
    rw [dif_pos hm]
    -- result index (n, d) reads its start index at (n, 0) of the column of ids,
    have hsi : gather_S100x64_S1000000x1_S1000000x64_1_0_n_n_0_1_164.siIdx (ix2 n d) ⟨List.idxOf (0 : Fin S100x64.rank) gather_S100x64_S1000000x1_S1000000x64_1_0_n_n_0_1_164.startIndexMap,
        List.idxOf_lt_length_iff.2 hm⟩ = ix2 n (0 : Fin 1) := by
      funext b; refine Fin.ext ?_
      match b with
      | ⟨0, _⟩ => rfl
      | ⟨1, _⟩ => rfl
    -- which is the looked-up id of row n
    have h8 : Read.idx_main_v8 (ix2 n (0 : Fin 1)) = ix1 n := by
      funext b; match b with | ⟨0, _⟩ => rfl
    rw [hsi, Read.val_main_v8_apply, h8, lookup_id]
    rfl
  | ⟨1, _⟩ =>
    -- the table's column axis is neither start-indexed nor collapsed: start 0, and the offset coordinate is the
    -- result's coordinate on its one offset axis, the column d
    have hm : (1 : Fin S100x64.rank) ∉ gather_S100x64_S1000000x1_S1000000x64_1_0_n_n_0_1_164.startIndexMap := fun h =>
      absurd (List.mem_singleton.mp h) (by decide)
    have hk : (1 : Fin S100x64.rank) ∈ gather_S100x64_S1000000x1_S1000000x64_1_0_n_n_0_1_164.sKept :=
      (GatherDims.mem_sKept _ _).mpr ⟨fun h => absurd (List.mem_singleton.mp h) (by decide), hb 1⟩
    have ho : ∀ (k : Nat) (h : k < gather_S100x64_S1000000x1_S1000000x64_1_0_n_n_0_1_164.offsetDims.length),
        gather_S100x64_S1000000x1_S1000000x64_1_0_n_n_0_1_164.offsetDims[k]'h = (1 : Fin S1000000x64.rank) := by
      intro k h
      have hl : gather_S100x64_S1000000x1_S1000000x64_1_0_n_n_0_1_164.offsetDims.length = 1 := rfl
      have hk0 : k = 0 := by omega
      subst hk0; rfl
    show gather_S100x64_S1000000x1_S1000000x64_1_0_n_n_0_1_164.start (ix2 n d) (Read.val_main_v8 (F := Ideal) x2) 1
      + gather_S100x64_S1000000x1_S1000000x64_1_0_n_n_0_1_164.batchCoord (ix2 n d) 1 + gather_S100x64_S1000000x1_S1000000x64_1_0_n_n_0_1_164.offCoord (ix2 n d) 1 = _
    rw [GatherDims.batchCoord_eq_zero _ _ _ (hb 1)]
    unfold GatherDims.start GatherDims.offCoord
    rw [dif_neg hm, dif_pos hk, ho]
    simp only [Nat.zero_add, Nat.add_zero]

/-- The reconstruction error. -/
theorem v2_eq (x0 x1 : (⟨S1000000x64, .f32⟩ : BufTy).Contents (Elt Ideal)) :
    Read.val_main_v2 (F := Ideal) x0 x1 = fun _ => Cert.Spec.Rrecon x0 x1 := by
  -- the sum's initial value plus the sum, term by term: each term is the squared difference
  funext i
  rw [Read.val_main_v2_apply, Read.val_main_cst_apply]
  unfold Cert.Spec.Rrecon
  refine congrArg₂ (· + ·) rfl (Finset.sum_congr rfl fun j _ => ?_)
  rw [Read.val_main_v1_apply, Read.val_main_v0_apply]
  rfl

/-- The cluster loss. -/
theorem v12_eq (x1 : (⟨S1000000x64, .f32⟩ : BufTy).Contents (Elt Ideal)) (x2 : (⟨S1000000, .i32⟩ : BufTy).Contents (Elt Ideal))
    (x3 : (⟨S100x64, .f32⟩ : BufTy).Contents (Elt Ideal)) :
    Read.val_main_v12 (F := Ideal) x1 x2 x3 = fun _ => Cert.Spec.Rcluster x1 x2 x3 := by
  funext i
  rw [Read.val_main_v12_apply, Read.val_main_cst_1_apply]
  unfold Cert.Spec.Rcluster
  refine congrArg₂ (· + ·) rfl (Finset.sum_congr rfl fun j _ => ?_)
  -- term by term: an index is its (row, column), and the gathered centre there is the table's row of the row's id
  have hj : j = ix2 (⟨(j 0).val, (j 0).isLt⟩ : Fin 1000000) (⟨(j 1).val, (j 1).isLt⟩ : Fin 64) := by
    funext a; match a with | ⟨0, _⟩ => rfl | ⟨1, _⟩ => rfl
  have h9 : Read.val_main_v9 (F := Ideal) x2 x3 j
      = x3 (ix2 (Cert.Spec.gidx (x2 (ix1 (⟨(j 0).val, (j 0).isLt⟩ : Fin 1000000)))) (⟨(j 1).val, (j 1).isLt⟩ : Fin 64)) :=
    (congrArg (Read.val_main_v9 (F := Ideal) x2 x3) hj).trans (gather_apply x2 x3 _ _)
  rw [Read.val_main_v11_apply, Read.val_main_v10_apply, h9]
  rfl

/-- The total. -/
theorem v15_eq (x0 x1 : (⟨S1000000x64, .f32⟩ : BufTy).Contents (Elt Ideal)) (x2 : (⟨S1000000, .i32⟩ : BufTy).Contents (Elt Ideal))
    (x3 : (⟨S100x64, .f32⟩ : BufTy).Contents (Elt Ideal)) :
    Read.val_main_v15 (F := Ideal) x0 x1 x2 x3 = fun _ => Cert.Spec.Rtotal x0 x1 x2 x3 := by
  -- one times the reconstruction error plus one times the cluster loss, the same literal on both sides
  funext i
  rw [Read.val_main_v15_apply, Read.val_main_v13_apply, Read.val_main_v14_apply, Read.val_main_cst_2_apply,
    Read.val_main_cst_3_apply, v2_eq, v12_eq]
  rfl

end Cert.ReferenceIdeal.RefValue

end
-- ==== Proof.Pieces.lean ====
/-
  What one run of the kernel body leaves in the three accumulator blocks and in the lane-number table, as values.

  At the first step of a half the body stores zero blocks and the lane-number table, reads them back, and adds the
  block's contribution; at every later step it adds the block's contribution to what the step before left, and the
  table is untouched.  Each accumulator block is written whole by its last store, so what it holds afterwards is
  that store's value: the block's segment sums, counts and scalar totals added to the previous contents.
-/
import proofs.«413849_j7507602833888_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A later step of a half: each accumulator at its old contents plus the block's contribution -/

theorem out_B3 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x2 .i32) (harg4 : arg4.IsWhole) (arg5 : Memref sig .tc .vmem S1x128x64 .f32) (harg5 : arg5.IsWhole) (arg6 : Memref sig .tc .vmem S1x128x8 .f32) (harg6 : arg6.IsWhole) (arg7 : Memref sig .tc .vmem S1x1x128 .f32) (harg7 : arg7.IsWhole) (arg8 : Memref sig .tc .vmem S5000x128 .i32) (harg8 : arg8.IsWhole) (hc0 : ¬cond0_0 i)
    (x0 : Vec F S5000x128 .f32) (x1 : Vec F S5000x128 .f32) (x2 : Vec F S5000x2 .i32) (xo3 : Vec F S1x128x64 .f32) (xo4 : Vec F S1x128x8 .f32) (xo5 : Vec F S1x1x128 .f32) (xs0 : Vec F S5000x128 .i32) :
    out0_B_3 c i arg2 harg2 arg3 harg3 arg4 harg4 arg5 harg5 arg6 harg6 arg7 harg7 arg8 harg8 hc0 x0 x1 x2 xo3 xo4 xo5 xs0
      = k0_pay14 (k0_pay12 x1 x2 xs0) (k0_pay13 x1 x2 xs0) xo3 := by
  unfold out0_B_3
  rw [View.read_writes_eq_canon _ _ _ (cover0_B_3 c i arg2 harg2 arg3 harg3 arg4 harg4 arg5 harg5 arg6 harg6 arg7 harg7 arg8 harg8 hc0 x0 x1 x2 xo3 xo4 xo5 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S5000x128) hz2, View.ld_unit_zero (S := S5000x2) hz2, View.ld_unit_zero (S := S1x128x64) hz3, View.ld_unit_zero (S := S1x128x8) hz3, View.ld_unit_zero (S := S1x1x128) hz3]

theorem out_B4 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x2 .i32) (harg4 : arg4.IsWhole) (arg5 : Memref sig .tc .vmem S1x128x64 .f32) (harg5 : arg5.IsWhole) (arg6 : Memref sig .tc .vmem S1x128x8 .f32) (harg6 : arg6.IsWhole) (arg7 : Memref sig .tc .vmem S1x1x128 .f32) (harg7 : arg7.IsWhole) (arg8 : Memref sig .tc .vmem S5000x128 .i32) (harg8 : arg8.IsWhole) (hc0 : ¬cond0_0 i)
    (x0 : Vec F S5000x128 .f32) (x1 : Vec F S5000x128 .f32) (x2 : Vec F S5000x2 .i32) (xo3 : Vec F S1x128x64 .f32) (xo4 : Vec F S1x128x8 .f32) (xo5 : Vec F S1x1x128 .f32) (xs0 : Vec F S5000x128 .i32) :
    out0_B_4 c i arg2 harg2 arg3 harg3 arg4 harg4 arg5 harg5 arg6 harg6 arg7 harg7 arg8 harg8 hc0 x0 x1 x2 xo3 xo4 xo5 xs0
      = k0_pay15 (k0_pay10 x2 xs0) (k0_pay11 x2 xs0) xo4 := by
  unfold out0_B_4
  rw [View.read_writes_eq_canon _ _ _ (cover0_B_4 c i arg2 harg2 arg3 harg3 arg4 harg4 arg5 harg5 arg6 harg6 arg7 harg7 arg8 harg8 hc0 x0 x1 x2 xo3 xo4 xo5 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S5000x128) hz2, View.ld_unit_zero (S := S5000x2) hz2, View.ld_unit_zero (S := S1x128x64) hz3, View.ld_unit_zero (S := S1x128x8) hz3, View.ld_unit_zero (S := S1x1x128) hz3]

theorem out_B5 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x2 .i32) (harg4 : arg4.IsWhole) (arg5 : Memref sig .tc .vmem S1x128x64 .f32) (harg5 : arg5.IsWhole) (arg6 : Memref sig .tc .vmem S1x128x8 .f32) (harg6 : arg6.IsWhole) (arg7 : Memref sig .tc .vmem S1x1x128 .f32) (harg7 : arg7.IsWhole) (arg8 : Memref sig .tc .vmem S5000x128 .i32) (harg8 : arg8.IsWhole) (hc0 : ¬cond0_0 i)
    (x0 : Vec F S5000x128 .f32) (x1 : Vec F S5000x128 .f32) (x2 : Vec F S5000x2 .i32) (xo3 : Vec F S1x128x64 .f32) (xo4 : Vec F S1x128x8 .f32) (xo5 : Vec F S1x1x128 .f32) (xs0 : Vec F S5000x128 .i32) :
    out0_B_5 c i arg2 harg2 arg3 harg3 arg4 harg4 arg5 harg5 arg6 harg6 arg7 harg7 arg8 harg8 hc0 x0 x1 x2 xo3 xo4 xo5 xs0
      = k0_pay1 (k0_pay16 (k0_pay7 x0 x1) (k0_pay8 x1) xo5) := by
  unfold out0_B_5
  rw [View.read_writes_eq_canon _ _ _ (cover0_B_5 c i arg2 harg2 arg3 harg3 arg4 harg4 arg5 harg5 arg6 harg6 arg7 harg7 arg8 harg8 hc0 x0 x1 x2 xo3 xo4 xo5 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S5000x128) hz2, View.ld_unit_zero (S := S5000x2) hz2, View.ld_unit_zero (S := S1x128x64) hz3, View.ld_unit_zero (S := S1x128x8) hz3, View.ld_unit_zero (S := S1x1x128) hz3]

/-! ## The first step of a half: zero blocks and the lane-number table stored, read back, and the block's contribution added -/

theorem out_A3 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x2 .i32) (harg4 : arg4.IsWhole) (arg5 : Memref sig .tc .vmem S1x128x64 .f32) (harg5 : arg5.IsWhole) (arg6 : Memref sig .tc .vmem S1x128x8 .f32) (harg6 : arg6.IsWhole) (arg7 : Memref sig .tc .vmem S1x1x128 .f32) (harg7 : arg7.IsWhole) (arg8 : Memref sig .tc .vmem S5000x128 .i32) (harg8 : arg8.IsWhole) (hc0 : cond0_0 i)
    (x0 : Vec F S5000x128 .f32) (x1 : Vec F S5000x128 .f32) (x2 : Vec F S5000x2 .i32) :
    out0_A_3 c i arg2 harg2 arg3 harg3 arg4 harg4 arg5 harg5 arg6 harg6 arg7 harg7 arg8 harg8 hc0 x0 x1 x2
      = k0_pay14 (k0_pay12 x1 x2 k0_pay5) (k0_pay13 x1 x2 k0_pay5) k0_pay2 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x128x64) hz3]
  simp only [View.readAt_eq_ld, harg2.read_unread, harg3.read_unread, harg4.read_unread, harg5.read_unread, harg6.read_unread, harg7.read_unread, harg8.read_unread,
    View.ld_unit_zero (S := S5000x128) hz2, View.ld_unit_zero (S := S5000x2) hz2, View.ld_unit_zero (S := S1x128x64) hz3, View.ld_unit_zero (S := S1x128x8) hz3, View.ld_unit_zero (S := S1x1x128) hz3,
    View.readCov_unit_zero (S := S5000x128) _ hz2, View.readCov_unit_zero (S := S1x128x64) _ hz3, View.readCov_unit_zero (S := S1x128x8) _ hz3, View.readCov_unit_zero (S := S1x1x128) _ hz3]

theorem out_A4 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x2 .i32) (harg4 : arg4.IsWhole) (arg5 : Memref sig .tc .vmem S1x128x64 .f32) (harg5 : arg5.IsWhole) (arg6 : Memref sig .tc .vmem S1x128x8 .f32) (harg6 : arg6.IsWhole) (arg7 : Memref sig .tc .vmem S1x1x128 .f32) (harg7 : arg7.IsWhole) (arg8 : Memref sig .tc .vmem S5000x128 .i32) (harg8 : arg8.IsWhole) (hc0 : cond0_0 i)
    (x0 : Vec F S5000x128 .f32) (x1 : Vec F S5000x128 .f32) (x2 : Vec F S5000x2 .i32) :
    out0_A_4 c i arg2 harg2 arg3 harg3 arg4 harg4 arg5 harg5 arg6 harg6 arg7 harg7 arg8 harg8 hc0 x0 x1 x2
      = k0_pay15 (k0_pay10 x2 k0_pay5) (k0_pay11 x2 k0_pay5) k0_pay3 := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x128x8) hz3]
  simp only [View.readAt_eq_ld, harg2.read_unread, harg3.read_unread, harg4.read_unread, harg5.read_unread, harg6.read_unread, harg7.read_unread, harg8.read_unread,
    View.ld_unit_zero (S := S5000x128) hz2, View.ld_unit_zero (S := S5000x2) hz2, View.ld_unit_zero (S := S1x128x64) hz3, View.ld_unit_zero (S := S1x128x8) hz3, View.ld_unit_zero (S := S1x1x128) hz3,
    View.readCov_unit_zero (S := S5000x128) _ hz2, View.readCov_unit_zero (S := S1x128x64) _ hz3, View.readCov_unit_zero (S := S1x128x8) _ hz3, View.readCov_unit_zero (S := S1x1x128) _ hz3]

theorem out_A5 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x2 .i32) (harg4 : arg4.IsWhole) (arg5 : Memref sig .tc .vmem S1x128x64 .f32) (harg5 : arg5.IsWhole) (arg6 : Memref sig .tc .vmem S1x128x8 .f32) (harg6 : arg6.IsWhole) (arg7 : Memref sig .tc .vmem S1x1x128 .f32) (harg7 : arg7.IsWhole) (arg8 : Memref sig .tc .vmem S5000x128 .i32) (harg8 : arg8.IsWhole) (hc0 : cond0_0 i)
    (x0 : Vec F S5000x128 .f32) (x1 : Vec F S5000x128 .f32) (x2 : Vec F S5000x2 .i32) :
    out0_A_5 c i arg2 harg2 arg3 harg3 arg4 harg4 arg5 harg5 arg6 harg6 arg7 harg7 arg8 harg8 hc0 x0 x1 x2
      = k0_pay1 (k0_pay16 (k0_pay7 x0 x1) (k0_pay8 x1) k0_pay4) := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x1x128) hz3]
  simp only [View.readAt_eq_ld, harg2.read_unread, harg3.read_unread, harg4.read_unread, harg5.read_unread, harg6.read_unread, harg7.read_unread, harg8.read_unread,
    View.ld_unit_zero (S := S5000x128) hz2, View.ld_unit_zero (S := S5000x2) hz2, View.ld_unit_zero (S := S1x128x64) hz3, View.ld_unit_zero (S := S1x128x8) hz3, View.ld_unit_zero (S := S1x1x128) hz3,
    View.readCov_unit_zero (S := S5000x128) _ hz2, View.readCov_unit_zero (S := S1x128x64) _ hz3, View.readCov_unit_zero (S := S1x128x8) _ hz3, View.readCov_unit_zero (S := S1x1x128) _ hz3]

theorem sout_A0 (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x2 .i32) (harg4 : arg4.IsWhole) (arg5 : Memref sig .tc .vmem S1x128x64 .f32) (harg5 : arg5.IsWhole) (arg6 : Memref sig .tc .vmem S1x128x8 .f32) (harg6 : arg6.IsWhole) (arg7 : Memref sig .tc .vmem S1x1x128 .f32) (harg7 : arg7.IsWhole) (arg8 : Memref sig .tc .vmem S5000x128 .i32) (harg8 : arg8.IsWhole) (hc0 : cond0_0 i)
    (x0 : Vec F S5000x128 .f32) (x1 : Vec F S5000x128 .f32) (x2 : Vec F S5000x2 .i32) :
    sout0_A_0 c i arg2 harg2 arg3 harg3 arg4 harg4 arg5 harg5 arg6 harg6 arg7 harg7 arg8 harg8 hc0 x0 x1 x2 = k0_pay5 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]

end Cert.KernelIdeal.Val

end
-- ==== Proof.Payload.lean ====
/-
  One block's one-hot products, read entry by entry at the ideal instance.

  A block is 5000 packed rows of 128 lanes of the data (`x1`) and 5000 pairs of cluster ids (`x2`); beside them the
  kernel keeps the table of lane numbers.  The one-hot matrix of the first (second) id of each pair, times the first
  (second) 64 lanes of the data block, summed over the rows, is the block's segment sum; against a block of ones it
  is the block's count.  Changes of float format are the identity here, and a matrix product into a zero accumulator
  is just the sum of products over the contracted rows.
-/
import proofs.«413849_j7507602833888_3_alg».proof.Proof.Spec
import proofs.«413849_j7507602833888_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The lane-number table: entry (ρ, k) is the number k. -/
theorem iota_apply (ρ : Fin 5000) (k : Fin 128) : (k0_pay5 : IVec S5000x128 32) (ix2 ρ k) = BitVec.ofNat 32 k.val := by
  unfold k0_pay5
  rw [shapeCast_self, iota_single_apply]

/-- A one-bit comparison for equality, widened and read as a number, is the indicator of equality. -/
theorem onehot (a b : BitVec 32) :
    (((BitVec.setWidth 32 (IntOp.cmpi .eq a b)).toInt : ℝ) : EReal) = if a = b then 1 else 0 := by
  have h1 : (BitVec.setWidth 32 1#1).toInt = 1 := by decide
  have h0 : (BitVec.setWidth 32 0#1).toInt = 0 := by decide
  by_cases h : a = b
  · have hc : IntOp.cmpi .eq a b = 1#1 := by subst h; simp [IntOp.cmpi]
    rw [hc, h1, if_pos h]; simp
  · have hc : IntOp.cmpi .eq a b = 0#1 := by
      have : (a == b) = false := by simpa using h
      simp [IntOp.cmpi, this]
    rw [hc, h0, if_neg h]; simp

/-- The first id of each pair, spread along the lanes. -/
theorem ids0_apply (x2 : Vec Ideal S5000x2 .i32) (ρ : Fin 5000) (k : Fin 128) :
    broadcastTo S5000x128 (shapeCast S5000x1 (extractStridedSlice S5000x1 ![0, 0] (k0_pay9 (F := Ideal) x2)
      Facts₀.slices_S5000x2_o0_0_S5000x1) Facts₀.shapeCasts_S5000x1_S5000x1) Facts₀.broadcasts_S5000x1_S5000x128 (ix2 ρ k)
      = x2 (ix2 ρ (0 : Fin 2)) := by
  refine (broadcastTo_apply _ _ (ix2 ρ k) (ix2 ρ (0 : Fin 1)) ?_).trans ?_
  · intro a
    match a with
    | ⟨0, _⟩ => rfl
    | ⟨1, _⟩ => rfl
  rw [shapeCast_self]
  refine (extractStridedSlice_apply _ _ _ (ix2 ρ (0 : Fin 1)) (ix2 ρ (0 : Fin 2)) ?_).trans ?_
  · intro a
    match a with
    | ⟨0, _⟩ => show ρ.val = 0 + ρ.val; omega
    | ⟨1, _⟩ => rfl
  unfold k0_pay9
  rw [shapeCast_self]

/-- The one-hot entry of the first id: 1 when it is the lane's number. -/
theorem oh0_apply (x2 : Vec Ideal S5000x2 .i32) (ρ : Fin 5000) (k : Fin 128) :
    k0_pay10 (F := Ideal) x2 k0_pay5 (ix2 ρ k) = Cert.Spec.oh (x2 (ix2 ρ (0 : Fin 2))) k := by
  unfold k0_pay10
  show (((BitVec.setWidth 32 (IntOp.cmpi .eq (broadcastTo S5000x128 (shapeCast S5000x1 (extractStridedSlice S5000x1 ![0, 0]
    (k0_pay9 (F := Ideal) x2) _) _) _ (ix2 ρ k)) (k0_pay5 (ix2 ρ k)))).toInt : ℝ) : EReal) = _
  rw [ids0_apply, iota_apply]
  exact onehot _ _

/-- The operand indices of the 64-column product at output entry j and contraction position κ: the first operand is
    read at (κ, j₀), the second at (κ, j₁). -/
theorem lhs64_0 (j : S128x64.Idx) (κ : dot_S5000x128_S5000x64_S128x64_0_0_1_1_n_n.contr.Idx) :
    ((dot_S5000x128_S5000x64_S128x64_0_0_1_1_n_n.lhsIdx j κ) 0).val = (κ ⟨0, by decide⟩).val :=
  DotDims.lhsIdx_val_of_single _ rfl j κ
theorem lhs64_1 (j : S128x64.Idx) (κ : dot_S5000x128_S5000x64_S128x64_0_0_1_1_n_n.contr.Idx) :
    ((dot_S5000x128_S5000x64_S128x64_0_0_1_1_n_n.lhsIdx j κ) 1).val = (j 0).val := by
  simp [DotDims.lhsIdx, dot_S5000x128_S5000x64_S128x64_0_0_1_1_n_n]; rfl
theorem rhs64_0 (j : S128x64.Idx) (κ : dot_S5000x128_S5000x64_S128x64_0_0_1_1_n_n.contr.Idx) :
    ((dot_S5000x128_S5000x64_S128x64_0_0_1_1_n_n.rhsIdx j κ) 0).val = (κ ⟨0, by decide⟩).val :=
  DotDims.rhsIdx_val_of_single _ rfl j κ
theorem rhs64_1 (j : S128x64.Idx) (κ : dot_S5000x128_S5000x64_S128x64_0_0_1_1_n_n.contr.Idx) :
    ((dot_S5000x128_S5000x64_S128x64_0_0_1_1_n_n.rhsIdx j κ) 1).val = (j 1).val := by
  simp [DotDims.rhsIdx, dot_S5000x128_S5000x64_S128x64_0_0_1_1_n_n]; rfl

/-- A product into the zero block, contracted over the rows of both operands: entry (k, d) is the sum over the rows of
    the products of column k of the first and column d of the second. -/
theorem matmul64_apply (A : FVec Ideal S5000x128 .bf16) (B : FVec Ideal S5000x64 .bf16) (k : Fin 128) (d : Fin 64) :
    matmul dot_S5000x128_S5000x64_S128x64_0_0_1_1_n_n none A B (constant (F := Ideal) S128x64 .f32 0x00000000#32) (ix2 k d)
      = ∑ ρ : Fin 5000, A (ix2 ρ k) * B (ix2 ρ d) := by
  show FloatOps.matmul _ none A B _ (ix2 k d) = _
  rw [Ideal.matmul_constant_zero_apply,
    ← Equiv.sum_comp (contrEquiv1 dot_S5000x128_S5000x64_S128x64_0_0_1_1_n_n 5000 rfl rfl).symm]
  refine Finset.sum_congr rfl fun c _ => ?_
  have c2 := contrEquiv1_symm_val dot_S5000x128_S5000x64_S128x64_0_0_1_1_n_n 5000 rfl rfl c
  have l2 : dot_S5000x128_S5000x64_S128x64_0_0_1_1_n_n.lhsIdx (ix2 k d) ((contrEquiv1 _ 5000 rfl rfl).symm c) = ix2 c k := by
    funext ax; apply Fin.ext
    match ax with
    | ⟨0, _⟩ => exact (lhs64_0 _ _).trans c2
    | ⟨1, _⟩ => exact lhs64_1 _ _
  have r2 : dot_S5000x128_S5000x64_S128x64_0_0_1_1_n_n.rhsIdx (ix2 k d) ((contrEquiv1 _ 5000 rfl rfl).symm c) = ix2 c d := by
    funext ax; apply Fin.ext
    match ax with
    | ⟨0, _⟩ => exact (rhs64_0 _ _).trans c2
    | ⟨1, _⟩ => exact rhs64_1 _ _
  rw [l2, r2]

/-- The second id of each pair, spread along the lanes. -/
theorem ids1_apply (x2 : Vec Ideal S5000x2 .i32) (ρ : Fin 5000) (k : Fin 128) :
    broadcastTo S5000x128 (shapeCast S5000x1 (extractStridedSlice S5000x1 ![0, 1] (k0_pay9 (F := Ideal) x2)
      Facts₀.slices_S5000x2_o0_1_S5000x1) Facts₀.shapeCasts_S5000x1_S5000x1) Facts₀.broadcasts_S5000x1_S5000x128 (ix2 ρ k)
      = x2 (ix2 ρ (1 : Fin 2)) := by
  refine (broadcastTo_apply _ _ (ix2 ρ k) (ix2 ρ (0 : Fin 1)) ?_).trans ?_
  · intro a
    match a with
    | ⟨0, _⟩ => rfl
    | ⟨1, _⟩ => rfl
  rw [shapeCast_self]
  refine (extractStridedSlice_apply _ _ _ (ix2 ρ (0 : Fin 1)) (ix2 ρ (1 : Fin 2)) ?_).trans ?_
  · intro a
    match a with
    | ⟨0, _⟩ => show ρ.val = 0 + ρ.val; omega
    | ⟨1, _⟩ => rfl
  unfold k0_pay9
  rw [shapeCast_self]

/-- The one-hot entry of the second id. -/
theorem oh1_apply (x2 : Vec Ideal S5000x2 .i32) (ρ : Fin 5000) (k : Fin 128) :
    k0_pay11 (F := Ideal) x2 k0_pay5 (ix2 ρ k) = Cert.Spec.oh (x2 (ix2 ρ (1 : Fin 2))) k := by
  unfold k0_pay11
  show (((BitVec.setWidth 32 (IntOp.cmpi .eq (broadcastTo S5000x128 (shapeCast S5000x1 (extractStridedSlice S5000x1 ![0, 1]
    (k0_pay9 (F := Ideal) x2) _) _) _ (ix2 ρ k)) (k0_pay5 (ix2 ρ k)))).toInt : ℝ) : EReal) = _
  rw [ids1_apply, iota_apply]
  exact onehot _ _

/-- The first 64 lanes of the data block. -/
theorem lo_apply (x1 : Vec Ideal S5000x128 .f32) (ρ : Fin 5000) (d : Fin 64) :
    extractStridedSlice S5000x64 ![0, 0] (k0_pay6 (F := Ideal) x1) Facts₀.slices_S5000x128_o0_0_S5000x64 (ix2 ρ d)
      = x1 (ix2 ρ (Cert.Spec.lo d)) := by
  refine (extractStridedSlice_apply _ _ _ (ix2 ρ d) (ix2 ρ (Cert.Spec.lo d)) ?_).trans ?_
  · intro a
    match a with
    | ⟨0, _⟩ => show ρ.val = 0 + ρ.val; omega
    | ⟨1, _⟩ => show d.val = 0 + d.val; omega
  unfold k0_pay6
  rw [shapeCast_self]

/-- The last 64 lanes of the data block. -/
theorem hi_apply (x1 : Vec Ideal S5000x128 .f32) (ρ : Fin 5000) (d : Fin 64) :
    extractStridedSlice S5000x64 ![0, 64] (k0_pay6 (F := Ideal) x1) Facts₀.slices_S5000x128_o0_64_S5000x64 (ix2 ρ d)
      = x1 (ix2 ρ (Cert.Spec.hi d)) := by
  refine (extractStridedSlice_apply _ _ _ (ix2 ρ d) (ix2 ρ (Cert.Spec.hi d)) ?_).trans ?_
  · intro a
    match a with
    | ⟨0, _⟩ => show ρ.val = 0 + ρ.val; omega
    | ⟨1, _⟩ => rfl
  unfold k0_pay6
  rw [shapeCast_self]

/-- The first product: the one-hot matrix of the first ids against the first 64 lanes, summed over the rows. -/
theorem pay12_apply (x1 : Vec Ideal S5000x128 .f32) (x2 : Vec Ideal S5000x2 .i32) (k : Fin 128) (d : Fin 64) :
    k0_pay12 (F := Ideal) x1 x2 k0_pay5 (ix2 k d)
      = ∑ ρ : Fin 5000, Cert.Spec.oh (x2 (ix2 ρ (0 : Fin 2))) k * x1 (ix2 ρ (Cert.Spec.lo d)) := by
  unfold k0_pay12
  refine (matmul64_apply _ _ k d).trans ?_
  refine Finset.sum_congr rfl fun ρ _ => ?_
  rw [oh0_apply, truncf_apply, lo_apply]

/-- The second product: the one-hot matrix of the second ids against the last 64 lanes, summed over the rows. -/
theorem pay13_apply (x1 : Vec Ideal S5000x128 .f32) (x2 : Vec Ideal S5000x2 .i32) (k : Fin 128) (d : Fin 64) :
    k0_pay13 (F := Ideal) x1 x2 k0_pay5 (ix2 k d)
      = ∑ ρ : Fin 5000, Cert.Spec.oh (x2 (ix2 ρ (1 : Fin 2))) k * x1 (ix2 ρ (Cert.Spec.hi d)) := by
  unfold k0_pay13
  refine (matmul64_apply _ _ k d).trans ?_
  refine Finset.sum_congr rfl fun ρ _ => ?_
  rw [oh1_apply, truncf_apply, hi_apply]

/-- The block's segment sums, with the lane-number table in place. -/
theorem seg_apply (x1 : Vec Ideal S5000x128 .f32) (x2 : Vec Ideal S5000x2 .i32) (k : Fin 128) (d : Fin 64) :
    k0_pay12 (F := Ideal) x1 x2 k0_pay5 (ix2 k d) + k0_pay13 (F := Ideal) x1 x2 k0_pay5 (ix2 k d)
      = (∑ ρ : Fin 5000, Cert.Spec.oh (x2 (ix2 ρ (0 : Fin 2))) k * x1 (ix2 ρ (Cert.Spec.lo d)))
        + (∑ ρ : Fin 5000, Cert.Spec.oh (x2 (ix2 ρ (1 : Fin 2))) k * x1 (ix2 ρ (Cert.Spec.hi d))) := by
  rw [pay12_apply, pay13_apply]

/-- The accumulating store of the segment sums: what was there plus the block's. -/
theorem pay14_apply (v39 v40 : FVec Ideal S128x64 .f32) (v58 : Vec Ideal S1x128x64 .f32) (k : Fin 128) (d : Fin 64) :
    k0_pay14 (F := Ideal) v39 v40 v58 (ix3 (0 : Fin 1) k d) = v58 (ix3 (0 : Fin 1) k d) + (v39 (ix2 k d) + v40 (ix2 k d)) := by
  unfold k0_pay14
  refine (shapeCast_ab_1ab_apply _ _ (0 : Fin 1) k d).trans ?_
  rw [addf_apply, addf_apply, shapeCast_1ab_ab_apply]

/-- The operand indices of the 8-column product at output entry j and contraction position κ: the first operand is
    read at (κ, j₀), the second at (κ, j₁). -/
theorem lhs8_0 (j : S128x8.Idx) (κ : dot_S5000x128_S5000x8_S128x8_0_0_1_1_n_n.contr.Idx) :
    ((dot_S5000x128_S5000x8_S128x8_0_0_1_1_n_n.lhsIdx j κ) 0).val = (κ ⟨0, by decide⟩).val :=
  DotDims.lhsIdx_val_of_single _ rfl j κ
theorem lhs8_1 (j : S128x8.Idx) (κ : dot_S5000x128_S5000x8_S128x8_0_0_1_1_n_n.contr.Idx) :
    ((dot_S5000x128_S5000x8_S128x8_0_0_1_1_n_n.lhsIdx j κ) 1).val = (j 0).val := by
  simp [DotDims.lhsIdx, dot_S5000x128_S5000x8_S128x8_0_0_1_1_n_n]; rfl
theorem rhs8_0 (j : S128x8.Idx) (κ : dot_S5000x128_S5000x8_S128x8_0_0_1_1_n_n.contr.Idx) :
    ((dot_S5000x128_S5000x8_S128x8_0_0_1_1_n_n.rhsIdx j κ) 0).val = (κ ⟨0, by decide⟩).val :=
  DotDims.rhsIdx_val_of_single _ rfl j κ
theorem rhs8_1 (j : S128x8.Idx) (κ : dot_S5000x128_S5000x8_S128x8_0_0_1_1_n_n.contr.Idx) :
    ((dot_S5000x128_S5000x8_S128x8_0_0_1_1_n_n.rhsIdx j κ) 1).val = (j 1).val := by
  simp [DotDims.rhsIdx, dot_S5000x128_S5000x8_S128x8_0_0_1_1_n_n]; rfl

/-- The same product against a block of eight columns. -/
theorem matmul8_apply (A : FVec Ideal S5000x128 .bf16) (B : FVec Ideal S5000x8 .bf16) (k : Fin 128) (j : Fin 8) :
    matmul dot_S5000x128_S5000x8_S128x8_0_0_1_1_n_n none A B (constant (F := Ideal) S128x8 .f32 0x00000000#32) (ix2 k j)
      = ∑ ρ : Fin 5000, A (ix2 ρ k) * B (ix2 ρ j) := by
  show FloatOps.matmul _ none A B _ (ix2 k j) = _
  rw [Ideal.matmul_constant_zero_apply,
    ← Equiv.sum_comp (contrEquiv1 dot_S5000x128_S5000x8_S128x8_0_0_1_1_n_n 5000 rfl rfl).symm]
  refine Finset.sum_congr rfl fun c _ => ?_
  have c2 := contrEquiv1_symm_val dot_S5000x128_S5000x8_S128x8_0_0_1_1_n_n 5000 rfl rfl c
  have l2 : dot_S5000x128_S5000x8_S128x8_0_0_1_1_n_n.lhsIdx (ix2 k j) ((contrEquiv1 _ 5000 rfl rfl).symm c) = ix2 c k := by
    funext ax; apply Fin.ext
    match ax with
    | ⟨0, _⟩ => exact (lhs8_0 _ _).trans c2
    | ⟨1, _⟩ => exact lhs8_1 _ _
  have r2 : dot_S5000x128_S5000x8_S128x8_0_0_1_1_n_n.rhsIdx (ix2 k j) ((contrEquiv1 _ 5000 rfl rfl).symm c) = ix2 c j := by
    funext ax; apply Fin.ext
    match ax with
    | ⟨0, _⟩ => exact (rhs8_0 _ _).trans c2
    | ⟨1, _⟩ => exact rhs8_1 _ _
  rw [l2, r2]

/-- The bf16 word the kernel spreads over the block of ones denotes 1. -/
theorem one_bf16 : (Scalar.ofBits (F := Ideal) .bf16 0x3F80#16 : Ideal .bf16) = 1 :=
  IdealRules.sign_bit.ideal_onePat .bf16

/-- The accumulating store of the counts: what was there plus the block's count, in every one of the eight columns. -/
theorem pay15_apply (x2 : Vec Ideal S5000x2 .i32) (v64 : Vec Ideal S1x128x8 .f32) (k : Fin 128) (j : Fin 8) :
    k0_pay15 (F := Ideal) (k0_pay10 (F := Ideal) x2 k0_pay5) (k0_pay11 (F := Ideal) x2 k0_pay5) v64 (ix3 (0 : Fin 1) k j)
      = v64 (ix3 (0 : Fin 1) k j)
        + ((∑ ρ : Fin 5000, Cert.Spec.oh (x2 (ix2 ρ (0 : Fin 2))) k * 1) + (∑ ρ : Fin 5000, Cert.Spec.oh (x2 (ix2 ρ (1 : Fin 2))) k * 1)) := by
  unfold k0_pay15
  refine (shapeCast_ab_1ab_apply _ _ (0 : Fin 1) k j).trans ?_
  rw [addf_apply, addf_apply, shapeCast_1ab_ab_apply, matmul8_apply, matmul8_apply]
  refine congrArg₂ (fun a b : EReal => v64 (ix3 (0 : Fin 1) k j) + (a + b)) ?_ ?_
  · refine Finset.sum_congr rfl fun ρ _ => ?_
    rw [oh0_apply, broadcast_apply, one_bf16]
  · refine Finset.sum_congr rfl fun ρ _ => ?_
    rw [oh1_apply, broadcast_apply, one_bf16]

end Cert.KernelIdeal.Payload

end
-- ==== Proof.PayloadScalar.lean ====
/-
  One block's two scalar totals and the zero blocks, read entry by entry at the ideal instance.

  Over a block of 5000 packed rows of 128 lanes the squared reconstruction error and the squared norm are double sums
  over rows and lanes (a sum along the lanes, then along the rows); a selection on the lane number places them at
  lanes 0 and 1 of the scalar accumulator's addend and zero at every other lane.  The first step of each half stores
  zero blocks before it accumulates.
-/
import proofs.«413849_j7507602833888_3_alg».proof.Proof.Spec
import proofs.«413849_j7507602833888_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayloadScalar

open Cert.KernelIdeal Cert.KernelIdeal.Gen Idealize.ShloMosaic Idealize.ShloMosaic.ValueIdx

/-- The three zero blocks the first step of a half stores. -/
theorem pay2_apply (i : S1x128x64.Idx) : (k0_pay2 (F := Ideal)) i = Cert.Spec.zero := rfl
theorem pay3_apply (i : S1x128x8.Idx) : (k0_pay3 (F := Ideal)) i = Cert.Spec.zero := rfl
theorem pay4_apply (i : S1x1x128.Idx) : (k0_pay4 (F := Ideal)) i = Cert.Spec.zero := rfl

section Helpers
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a 5000 × 128 block, read at row `ρ`. -/
theorem laneSum_apply (v : FVec Ideal S5000x128 .f32) (ρ : Fin 5000) :
    multiReduction (F := Ideal) .add [1] S5000 v 0x00000000#32 reduces_S5000x128_S5000 (.inl rfl) rfl (ix1 ρ)
      = ∑ l : Fin 128, v (ix2 ρ l) := by
  refine (Ideal.multiReduction_add_single _ _ _ _ _ _).trans ?_
  refine Finset.sum_congr rfl fun l _ => congrArg v ?_
  funext c
  match c with
  | ⟨0, _⟩ => rfl
  | ⟨1, _⟩ => rfl

/-- The sum along the rows of a 5000 × 1 column, read at its one entry. -/
theorem rowSum_apply (v : FVec Ideal S5000x1 .f32) :
    multiReduction (F := Ideal) .add [0] S1 v 0x00000000#32 reduces_S5000x1_S1 (.inl rfl) rfl (ix1 (0 : Fin 1))
      = ∑ ρ : Fin 5000, v (ix2 ρ (0 : Fin 1)) := by
  refine (Ideal.multiReduction_add_single _ _ _ _ _ _).trans ?_
  refine Finset.sum_congr rfl fun ρ _ => congrArg v ?_
  funext c
  match c with
  | ⟨0, _⟩ => rfl
  | ⟨1, _⟩ => rfl

/-- The two reductions in a row: along the lanes, the column form, along the rows, and the 1 × 1 form. -/
theorem total_apply (v : FVec Ideal S5000x128 .f32) :
    shapeCast S1x1
        (multiReduction (F := Ideal) .add [0] S1
          (shapeCast S5000x1
            (multiReduction (F := Ideal) .add [1] S5000 v 0x00000000#32 reduces_S5000x128_S5000 (.inl rfl) rfl)
            shapeCasts_S5000_S5000x1)
          0x00000000#32 reduces_S5000x1_S1 (.inl rfl) rfl)
        shapeCasts_S1_S1x1 (ix2 (0 : Fin 1) (0 : Fin 1))
      = ∑ ρ : Fin 5000, ∑ l : Fin 128, v (ix2 ρ l) := by
  refine (shapeCast_a_1a_apply _ _ _ _).trans ?_
  refine (rowSum_apply _).trans ?_
  refine Finset.sum_congr rfl fun ρ _ => ?_
  refine (shapeCast_a_a1_apply _ _ _ _).trans ?_
  exact laneSum_apply v ρ

end Helpers

/-- The block's squared reconstruction error and squared norm. -/
theorem err_apply (x0 x1 : Vec Ideal S5000x128 .f32) :
    k0_pay7 (F := Ideal) x0 x1 (ix2 (0 : Fin 1) (0 : Fin 1))
      = ∑ ρ : Fin 5000, ∑ l : Fin 128, (x0 (ix2 ρ l) - x1 (ix2 ρ l)) * (x0 (ix2 ρ l) - x1 (ix2 ρ l)) := by
  unfold k0_pay7 k0_pay6
  refine (total_apply _).trans ?_
  refine Finset.sum_congr rfl fun ρ _ => Finset.sum_congr rfl fun l _ => ?_
  rw [mulf_apply, subf_apply, shapeCast_self, shapeCast_self]
theorem nrm_apply (x1 : Vec Ideal S5000x128 .f32) :
    k0_pay8 (F := Ideal) x1 (ix2 (0 : Fin 1) (0 : Fin 1)) = ∑ ρ : Fin 5000, ∑ l : Fin 128, x1 (ix2 ρ l) * x1 (ix2 ρ l) := by
  unfold k0_pay8 k0_pay6
  refine (total_apply _).trans ?_
  refine Finset.sum_congr rfl fun ρ _ => Finset.sum_congr rfl fun l _ => ?_
  rw [mulf_apply, shapeCast_self]

section Lanes
variable {α : Type}

/-- A `[1, 1]` array broadcast to `[1, b]` reads its one entry at every index. -/
theorem broadcastTo_11_1b_apply {b : ℕ} (v : (⟨2, ![1, 1]⟩ : Shape).Idx → α)
    (h : (⟨2, ![1, 1]⟩ : Shape).Broadcasts ⟨2, ![1, b]⟩) (p : Fin 1) (c : Fin b) :
    broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A lane number below 128 equals a small literal as a 32-bit word exactly when it does as a natural number. -/
theorem cmpi_eq_lane (l : Fin 128) (n : ℕ) (hn : n < 128) :
    IntOp.cmpi .eq (BitVec.ofNat 32 l.val) (BitVec.ofNat 32 n) = if l.val = n then 1#1 else 0#1 := by
  have hl := l.isLt
  unfold IntOp.cmpi
  by_cases h : l.val = n
  · rw [if_pos h, h]; simp
  · rw [if_neg h]
    have hne : BitVec.ofNat 32 l.val ≠ BitVec.ofNat 32 n := by
      intro e
      have e' := congrArg BitVec.toNat e
      rw [BitVec.toNat_ofNat, BitVec.toNat_ofNat, Nat.mod_eq_of_lt (by omega), Nat.mod_eq_of_lt (by omega)] at e'
      exact h e'
    rw [beq_eq_false_iff_ne.2 hne]
    rfl

end Lanes

/-- The accumulating store of the two scalars: what was there plus the two totals at lanes 0 and 1. -/
theorem pay16_apply (v12 v17 : FVec Ideal S1x1 .f32) (v70 : Vec Ideal S1x1x128 .f32) (l : Fin 128) :
    k0_pay1 (F := Ideal) (k0_pay16 (F := Ideal) v12 v17 v70) (ix3 (0 : Fin 1) (0 : Fin 1) l)
      = v70 (ix3 (0 : Fin 1) (0 : Fin 1) l)
        + Cert.Spec.lane l (v12 (ix2 (0 : Fin 1) (0 : Fin 1))) (v17 (ix2 (0 : Fin 1) (0 : Fin 1))) := by
  unfold k0_pay1
  refine (shapeCast_ab_1ab_apply _ _ _ _ _).trans ?_
  unfold k0_pay16
  rw [addf_apply, shapeCast_1ab_ab_apply, select_apply, select_apply, broadcastTo_11_1b_apply, broadcastTo_11_1b_apply,
    shapeCast_self, shapeCast_self, broadcast_apply]
  congr 1
  have h0 : cmpi .eq (iota .tc S1x128 32 [1] iota_S1x128_d1_w32) (broadcast S1x128 0#32) (ix2 (0 : Fin 1) l)
      = if l.val = 0 then 1#1 else 0#1 := by
    show IntOp.cmpi .eq (iota .tc S1x128 32 [1] iota_S1x128_d1_w32 (ix2 (0 : Fin 1) l)) 0#32 = _
    rw [iota_single_apply]
    exact cmpi_eq_lane l 0 (by omega)
  have h1 : cmpi .eq (iota .tc S1x128 32 [1] iota_S1x128_d1_w32) (broadcast S1x128 1#32) (ix2 (0 : Fin 1) l)
      = if l.val = 1 then 1#1 else 0#1 := by
    show IntOp.cmpi .eq (iota .tc S1x128 32 [1] iota_S1x128_d1_w32 (ix2 (0 : Fin 1) l)) 1#32 = _
    rw [iota_single_apply]
    exact cmpi_eq_lane l 1 (by omega)
  rw [h0, h1]
  unfold Cert.Spec.lane
  by_cases c0 : l.val = 0
  · rw [if_pos c0, if_pos c0, select_one]
  · rw [if_neg c0, if_neg c0, select_zero]
    by_cases c1 : l.val = 1
    · rw [if_pos c1, if_pos c1, select_one]
    · rw [if_neg c1, if_neg c1, select_zero]
      exact Ideal.ofBits_zero_f32

end Cert.KernelIdeal.PayloadScalar

end
-- ==== Proof.BlockRead.lean ====
/-
  What a window's block holds, entry by entry.

  Before the region the host lays each 1000000 × 64 array out as 500000 packed rows of 128 lanes (row-major, so packed
  row p holds original rows 2p and 2p+1 side by side) and the ids as 500000 pairs.  At grid point t = 50q + s the
  window of an input stages packed rows 5000·t … 5000·t + 4999: entry (ρ, l) of the block is entry
  (5000·t + ρ, l) of the packed array, that is, the original array at row 2·(5000·t + ρ) + l / 64 and column l % 64.
-/
import proofs.«413849_j7507602833888_3_alg».proof.Proof.Spec
import proofs.«413849_j7507602833888_3_alg».proof.Proof.Gen.KernelIdeal.Frame.Runs
import Idealize.ShloMosaic.Lib.Pipeline.Value
import Idealize.ShloMosaic.Lib.StableHlo.Run
import Idealize.ShloMosaic.Lib.ValueIdx

noncomputable section

namespace Cert.KernelIdeal.BlockRead

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Row-major positions

  Entry (p, l) of a 500000 × 128 array sits at position 128·p + l; entry (n, d) of a 1000000 × 64 array at 64·n + d.
  With n = 2p + l / 64 and d = l % 64 the two agree.  Entry (p, h) of a 500000 × 2 array sits at 2·p + h, which is
  entry n = 2p + h of the flat list. -/

/-- Lane l of packed row p and column l % 64 of original row 2p + l / 64 have the same row-major position. -/
theorem pos_rows (p : Fin 500000) (l : Fin 128) :
    ((⟨2, ![1000000, 64]⟩ : Shape).rowMajor (ix2 (Cert.Spec.orow p (Cert.Spec.lhalf l)) (Cert.Spec.lcol l))).val
      = ((⟨2, ![500000, 128]⟩ : Shape).rowMajor (ix2 p l)).val := by
  rw [Shape.rowMajor_val_two, Shape.rowMajor_val_two]
  show (2 * p.val + l.val / 64) * 64 + l.val % 64 = p.val * 128 + l.val
  omega

/-- Member h of pair p and entry 2p + h of the flat list have the same row-major position. -/
theorem pos_ids (p : Fin 500000) (h : Fin 2) :
    ((⟨1, ![1000000]⟩ : Shape).rowMajor (ix1 (Cert.Spec.orow p h))).val
      = ((⟨2, ![500000, 2]⟩ : Shape).rowMajor (ix2 p h)).val := by
  rw [Shape.rowMajor_val_one, Shape.rowMajor_val_two]
  show 2 * p.val + h.val = p.val * 2 + h.val
  omega

/-! ## The packed arrays the region finds

  Each is the host's reshape of the launched argument, and nothing else writes it before the region. -/

/-- The packed reconstruction is the launched reconstruction, re-indexed row-major. -/
theorem V_v0 (c : Dev nD) :
    (V m c main_v0 : S500000x128.Idx → EReal)
      = shapeCast S500000x128 (m ((c.tc : Thread nD τ).loc main_arg0)) shapeCasts_S1000000x64_S500000x128 := by
  dsimp only [Gen.V, Gen.V0]
  simp only [Gen.hostOps0, List.flatten_cons, List.flatten_nil, List.append_nil]
  after_results
  rfl

/-- The packed data is the launched data, re-indexed row-major. -/
theorem V_v1 (c : Dev nD) :
    (V m c main_v1 : S500000x128.Idx → EReal)
      = shapeCast S500000x128 (m ((c.tc : Thread nD τ).loc main_arg1)) shapeCasts_S1000000x64_S500000x128 := by
  dsimp only [Gen.V, Gen.V0]
  simp only [Gen.hostOps0, List.flatten_cons, List.flatten_nil, List.append_nil]
  after_results
  rfl

/-- The paired ids are the launched ids, re-indexed row-major. -/
theorem V_v2 (c : Dev nD) :
    (V m c main_v2 : S500000x2.Idx → BitVec 32)
      = shapeCast S500000x2 (m ((c.tc : Thread nD τ).loc main_arg2)) shapeCasts_S1000000_S500000x2 := by
  dsimp only [Gen.V, Gen.V0]
  simp only [Gen.hostOps0, List.flatten_cons, List.flatten_nil, List.append_nil]
  after_results
  rfl

/-- Entry (p, l) of the packed reconstruction. -/
theorem V_v0_apply (c : Dev nD) (p : Fin 500000) (l : Fin 128) :
    (V m c main_v0 : S500000x128.Idx → EReal) (ix2 p l)
      = Cert.Spec.pk (m ((c.tc : Thread nD τ).loc main_arg0)) p l := by
  rw [V_v0]
  unfold Cert.Spec.pk
  exact shapeCast_apply _ _ _ _ (pos_rows p l)

/-- Entry (p, l) of the packed data. -/
theorem V_v1_apply (c : Dev nD) (p : Fin 500000) (l : Fin 128) :
    (V m c main_v1 : S500000x128.Idx → EReal) (ix2 p l)
      = Cert.Spec.pk (m ((c.tc : Thread nD τ).loc main_arg1)) p l := by
  rw [V_v1]
  unfold Cert.Spec.pk
  exact shapeCast_apply _ _ _ _ (pos_rows p l)

/-- Entry (p, h) of the paired ids. -/
theorem V_v2_apply (c : Dev nD) (p : Fin 500000) (h : Fin 2) :
    (V m c main_v2 : S500000x2.Idx → BitVec 32) (ix2 p h)
      = Cert.Spec.pkA (m ((c.tc : Thread nD τ).loc main_arg2)) p h := by
  rw [V_v2]
  unfold Cert.Spec.pkA
  exact shapeCast_apply _ _ _ _ (pos_ids p h)

/-! ## A block's entry in the packed array

  The block of grid point t has index (t, 0): its entry (ρ, l) is entry (t · 5000 + ρ, 0 · width + l) of the array. -/

/-- Entry (ρ, l) of the reconstruction's block at point t is entry (5000·t + ρ, l) of the packed reconstruction. -/
theorem blk0_read (c : Dev nD) (t : Fin cfg0.N) (ρ : Fin 5000) (l : Fin 128) (p : Fin 500000)
    (hp : p.val = 5000 * t.val + ρ.val) :
    (iblk m c 0 t : Vec Ideal S5000x128 .f32) (ix2 ρ l) = (V m c main_v0 : S500000x128.Idx → EReal) (ix2 p l) := by
  have idx_facts : ∀ t : Fin cfg0.N, win0_0.index t (0 : Fin 2) = t.val ∧ win0_0.index t (1 : Fin 2) = 0 :=
    (by decide +kernel : ∀ t : Fin grid0.N, _)
  unfold iblk
  rw [View.read_apply]
  show V m c main_v0 (((cfg0.win 0).blk t).view.emb (ix2 ρ l)) = V m c main_v0 (ix2 p l)
  congr 1
  funext a
  apply Fin.ext
  match a with
  | ⟨0, _⟩ => show win0_0.index t 0 * 5000 + 1 * ρ.val = p.val; rw [(idx_facts t).1]; omega
  | ⟨1, _⟩ => show win0_0.index t 1 * 128 + 1 * l.val = l.val; rw [(idx_facts t).2]; omega

/-- Entry (ρ, l) of the data's block at point t is entry (5000·t + ρ, l) of the packed data. -/
theorem blk1_read (c : Dev nD) (t : Fin cfg0.N) (ρ : Fin 5000) (l : Fin 128) (p : Fin 500000)
    (hp : p.val = 5000 * t.val + ρ.val) :
    (iblk m c 1 t : Vec Ideal S5000x128 .f32) (ix2 ρ l) = (V m c main_v1 : S500000x128.Idx → EReal) (ix2 p l) := by
  have idx_facts : ∀ t : Fin cfg0.N, win0_1.index t (0 : Fin 2) = t.val ∧ win0_1.index t (1 : Fin 2) = 0 :=
    (by decide +kernel : ∀ t : Fin grid0.N, _)
  unfold iblk
  rw [View.read_apply]
  show V m c main_v1 (((cfg0.win 1).blk t).view.emb (ix2 ρ l)) = V m c main_v1 (ix2 p l)
  congr 1
  funext a
  apply Fin.ext
  match a with
  | ⟨0, _⟩ => show win0_1.index t 0 * 5000 + 1 * ρ.val = p.val; rw [(idx_facts t).1]; omega
  | ⟨1, _⟩ => show win0_1.index t 1 * 128 + 1 * l.val = l.val; rw [(idx_facts t).2]; omega

/-- Entry (ρ, h) of the ids' block at point t is entry (5000·t + ρ, h) of the paired ids. -/
theorem blk2_read (c : Dev nD) (t : Fin cfg0.N) (ρ : Fin 5000) (h : Fin 2) (p : Fin 500000)
    (hp : p.val = 5000 * t.val + ρ.val) :
    (iblk m c 2 t : Vec Ideal S5000x2 .i32) (ix2 ρ h) = (V m c main_v2 : S500000x2.Idx → BitVec 32) (ix2 p h) := by
  have idx_facts : ∀ t : Fin cfg0.N, win0_2.index t (0 : Fin 2) = t.val ∧ win0_2.index t (1 : Fin 2) = 0 :=
    (by decide +kernel : ∀ t : Fin grid0.N, _)
  unfold iblk
  rw [View.read_apply]
  show V m c main_v2 (((cfg0.win 2).blk t).view.emb (ix2 ρ h)) = V m c main_v2 (ix2 p h)
  congr 1
  funext a
  apply Fin.ext
  match a with
  | ⟨0, _⟩ => show win0_2.index t 0 * 5000 + 1 * ρ.val = p.val; rw [(idx_facts t).1]; omega
  | ⟨1, _⟩ => show win0_2.index t 1 * 2 + 1 * h.val = h.val; rw [(idx_facts t).2]; omega

/-! ## The blocks, entry by entry -/

/-- The reconstruction's block at point t = 50q + s. -/
theorem iblk0_apply (c : Dev nD) (t : Fin cfg0.N) (q : Fin 2) (s : Fin 50) (ht : t.val = 50 * q.val + s.val)
    (ρ : Fin 5000) (l : Fin 128) :
    (iblk m c 0 t : Vec Ideal S5000x128 .f32) (ix2 ρ l)
      = Cert.Spec.pk (m ((c.tc : Thread nD τ).loc main_arg0)) (Cert.Spec.prow q s ρ) l := by
  rw [blk0_read m c t ρ l (Cert.Spec.prow q s ρ) (by show 5000 * (50 * q.val + s.val) + ρ.val = _; rw [ht])]
  exact V_v0_apply m c _ l

/-- The data's block. -/
theorem iblk1_apply (c : Dev nD) (t : Fin cfg0.N) (q : Fin 2) (s : Fin 50) (ht : t.val = 50 * q.val + s.val)
    (ρ : Fin 5000) (l : Fin 128) :
    (iblk m c 1 t : Vec Ideal S5000x128 .f32) (ix2 ρ l)
      = Cert.Spec.pk (m ((c.tc : Thread nD τ).loc main_arg1)) (Cert.Spec.prow q s ρ) l := by
  rw [blk1_read m c t ρ l (Cert.Spec.prow q s ρ) (by show 5000 * (50 * q.val + s.val) + ρ.val = _; rw [ht])]
  exact V_v1_apply m c _ l

/-- The ids' block. -/
theorem iblk2_apply (c : Dev nD) (t : Fin cfg0.N) (q : Fin 2) (s : Fin 50) (ht : t.val = 50 * q.val + s.val)
    (ρ : Fin 5000) (h : Fin 2) :
    (iblk m c 2 t : Vec Ideal S5000x2 .i32) (ix2 ρ h)
      = Cert.Spec.pkA (m ((c.tc : Thread nD τ).loc main_arg2)) (Cert.Spec.prow q s ρ) h := by
  rw [blk2_read m c t ρ h (Cert.Spec.prow q s ρ) (by show 5000 * (50 * q.val + s.val) + ρ.val = _; rw [ht])]
  exact V_v2_apply m c _ h

end Cert.KernelIdeal.BlockRead

end
-- ==== Proof.Fold.lean ====
/-
  The three accumulators along the grid, at the ideal instance.

  Point t of the grid is step t % 50 of half t / 50.  At a half's first step each accumulator block holds zero plus
  the block's contribution; at each later step what the step before left plus the block's contribution; the
  lane-number table holds the lane numbers throughout.  So after point t an accumulator entry is zero plus the sum of
  the contributions of the points from the half's first up to t: an induction on the point.
-/
import proofs.«413849_j7507602833888_3_alg».proof.Proof.Spec
import proofs.«413849_j7507602833888_3_alg».proof.Proof.Pieces
import proofs.«413849_j7507602833888_3_alg».proof.Proof.Payload
import proofs.«413849_j7507602833888_3_alg».proof.Proof.PayloadScalar
import proofs.«413849_j7507602833888_3_alg».proof.Proof.BlockRead
import Idealize.ShloMosaic.Lib.Pipeline.Value
import Idealize.ShloMosaic.Lib.ValueIdx
import Idealize.ShloMosaic.PureOps.Ideal.Laws

noncomputable section

open scoped BigOperators

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (m : (ℓ : Loc nD τ sig) → Buf (Elt Ideal) ℓ)

/-- The four inputs as the kernel program's memory holds them at launch. -/
abbrev Rin (c : Dev nD) : Cert.Spec.SRows.Idx → EReal := m ((c.tc : Thread nD τ).loc main_arg0)
abbrev Xin (c : Dev nD) : Cert.Spec.SRows.Idx → EReal := m ((c.tc : Thread nD τ).loc main_arg1)
abbrev Ain (c : Dev nD) : Cert.Spec.SIds.Idx → BitVec 32 := m ((c.tc : Thread nD τ).loc main_arg2)
abbrev Cin (c : Dev nD) : Cert.Spec.STab.Idx → EReal := m ((c.tc : Thread nD τ).loc main_arg3)

theorem N100 : cfg0.N = 100 := N_0

/-- Point t's half and step. -/
def qOf (t : ℕ) (h : t < cfg0.N) : Fin 2 := ⟨t / 50, by have := N100; omega⟩
def sOf (t : ℕ) : Fin 50 := ⟨t % 50, Nat.mod_lt _ (by decide)⟩
theorem qs_eq (t : ℕ) (h : t < cfg0.N) : t = 50 * (qOf t h).val + (sOf t).val := by
  show t = 50 * (t / 50) + t % 50
  omega

/-! ## The lane-number table never changes -/

theorem scratch_eq (c : Dev nD) : ∀ (n : ℕ) (h : n < cfg0.N), (outsAt0 m c n h).2.2.2 = k0_pay5
  | 0, h => by
    rw [outsAt0_A m c ⟨0, h⟩ rfl]
    dsimp only
    exact sout_A0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ _ _
  | n + 1, h => by
    by_cases h0 : (n + 1) % 50 = 0
    · rw [outsAt0_A m c ⟨n + 1, h⟩ h0]
      dsimp only
      exact sout_A0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ _ _
    · rw [outsAt0_B m c ⟨n + 1, h⟩ h0]
      dsimp only [sout0_B_0]
      exact scratch_eq c n _

/-! ## The blocks at a point, under names of their literal types -/

abbrev rblk (c : Dev nD) (t : Fin cfg0.N) : Vec Ideal S5000x128 .f32 := iblk m c 0 t
abbrev xblk (c : Dev nD) (t : Fin cfg0.N) : Vec Ideal S5000x128 .f32 := iblk m c 1 t
abbrev ablk (c : Dev nD) (t : Fin cfg0.N) : Vec Ideal S5000x2 .i32 := iblk m c 2 t

theorem rblk_apply (c : Dev nD) (t : Fin cfg0.N) (q : Fin 2) (s : Fin 50) (ht : t.val = 50 * q.val + s.val) (ρ : Fin 5000) (l : Fin 128) :
    rblk m c t (ix2 ρ l) = Cert.Spec.pk (Rin m c) (Cert.Spec.prow q s ρ) l := BlockRead.iblk0_apply m c t q s ht ρ l
theorem xblk_apply (c : Dev nD) (t : Fin cfg0.N) (q : Fin 2) (s : Fin 50) (ht : t.val = 50 * q.val + s.val) (ρ : Fin 5000) (l : Fin 128) :
    xblk m c t (ix2 ρ l) = Cert.Spec.pk (Xin m c) (Cert.Spec.prow q s ρ) l := BlockRead.iblk1_apply m c t q s ht ρ l
theorem ablk_apply (c : Dev nD) (t : Fin cfg0.N) (q : Fin 2) (s : Fin 50) (ht : t.val = 50 * q.val + s.val) (ρ : Fin 5000) (h : Fin 2) :
    ablk m c t (ix2 ρ h) = Cert.Spec.pkA (Ain m c) (Cert.Spec.prow q s ρ) h := BlockRead.iblk2_apply m c t q s ht ρ h

/-! ## One point's contribution to each accumulator, from the blocks -/

/-- The segment sums of the block at point t = 50q + s. -/
theorem seg_blk (c : Dev nD) (t : Fin cfg0.N) (q : Fin 2) (s : Fin 50) (ht : t.val = 50 * q.val + s.val) (k : Fin 128) (d : Fin 64) :
    (∑ ρ : Fin 5000, Cert.Spec.oh (ablk m c t (ix2 ρ (0 : Fin 2))) k * xblk m c t (ix2 ρ (Cert.Spec.lo d)))
      + (∑ ρ : Fin 5000, Cert.Spec.oh (ablk m c t (ix2 ρ (1 : Fin 2))) k * xblk m c t (ix2 ρ (Cert.Spec.hi d)))
      = Cert.Spec.seg1 (Xin m c) (Ain m c) q s k d := by
  unfold Cert.Spec.seg1
  rw [Finset.sum_congr rfl fun ρ _ => show Cert.Spec.oh (ablk m c t (ix2 ρ (0 : Fin 2))) k * xblk m c t (ix2 ρ (Cert.Spec.lo d))
        = Cert.Spec.oh (Cert.Spec.pkA (Ain m c) (Cert.Spec.prow q s ρ) 0) k * Cert.Spec.pk (Xin m c) (Cert.Spec.prow q s ρ) (Cert.Spec.lo d) from by
          rw [ablk_apply m c t q s ht, xblk_apply m c t q s ht],
    Finset.sum_congr rfl fun ρ _ => show Cert.Spec.oh (ablk m c t (ix2 ρ (1 : Fin 2))) k * xblk m c t (ix2 ρ (Cert.Spec.hi d))
        = Cert.Spec.oh (Cert.Spec.pkA (Ain m c) (Cert.Spec.prow q s ρ) 1) k * Cert.Spec.pk (Xin m c) (Cert.Spec.prow q s ρ) (Cert.Spec.hi d) from by
          rw [ablk_apply m c t q s ht, xblk_apply m c t q s ht]]

/-- Its counts. -/
theorem cnt_blk (c : Dev nD) (t : Fin cfg0.N) (q : Fin 2) (s : Fin 50) (ht : t.val = 50 * q.val + s.val) (k : Fin 128) :
    (∑ ρ : Fin 5000, Cert.Spec.oh (ablk m c t (ix2 ρ (0 : Fin 2))) k * 1)
      + (∑ ρ : Fin 5000, Cert.Spec.oh (ablk m c t (ix2 ρ (1 : Fin 2))) k * 1)
      = Cert.Spec.cnt1 (Ain m c) q s k := by
  unfold Cert.Spec.cnt1
  rw [Finset.sum_congr rfl fun ρ _ => show Cert.Spec.oh (ablk m c t (ix2 ρ (0 : Fin 2))) k * 1
        = Cert.Spec.oh (Cert.Spec.pkA (Ain m c) (Cert.Spec.prow q s ρ) 0) k * 1 from by rw [ablk_apply m c t q s ht],
    Finset.sum_congr rfl fun ρ _ => show Cert.Spec.oh (ablk m c t (ix2 ρ (1 : Fin 2))) k * 1
        = Cert.Spec.oh (Cert.Spec.pkA (Ain m c) (Cert.Spec.prow q s ρ) 1) k * 1 from by rw [ablk_apply m c t q s ht]]

/-- Its squared error and squared norm. -/
theorem err_blk (c : Dev nD) (t : Fin cfg0.N) (q : Fin 2) (s : Fin 50) (ht : t.val = 50 * q.val + s.val) :
    (∑ ρ : Fin 5000, ∑ l : Fin 128, (rblk m c t (ix2 ρ l) - xblk m c t (ix2 ρ l))
        * (rblk m c t (ix2 ρ l) - xblk m c t (ix2 ρ l)))
      = Cert.Spec.err1 (Rin m c) (Xin m c) q s := by
  unfold Cert.Spec.err1
  exact Finset.sum_congr rfl fun ρ _ => Finset.sum_congr rfl fun l _ => by
    rw [rblk_apply m c t q s ht, xblk_apply m c t q s ht]
theorem nrm_blk (c : Dev nD) (t : Fin cfg0.N) (q : Fin 2) (s : Fin 50) (ht : t.val = 50 * q.val + s.val) :
    (∑ ρ : Fin 5000, ∑ l : Fin 128, xblk m c t (ix2 ρ l) * xblk m c t (ix2 ρ l))
      = Cert.Spec.nrm1 (Xin m c) q s := by
  unfold Cert.Spec.nrm1
  exact Finset.sum_congr rfl fun ρ _ => Finset.sum_congr rfl fun l _ => by
    rw [xblk_apply m c t q s ht]

/-- Point t's contribution to an entry of each accumulator (nothing past the grid). -/
def C3 (c : Dev nD) (k : Fin 128) (d : Fin 64) (t : ℕ) : EReal :=
  if h : t < cfg0.N then Cert.Spec.seg1 (Xin m c) (Ain m c) (qOf t h) (sOf t) k d else 0
def C4 (c : Dev nD) (k : Fin 128) (t : ℕ) : EReal :=
  if h : t < cfg0.N then Cert.Spec.cnt1 (Ain m c) (qOf t h) (sOf t) k else 0
def C5 (c : Dev nD) (l : Fin 128) (t : ℕ) : EReal :=
  if h : t < cfg0.N then Cert.Spec.lane l (Cert.Spec.err1 (Rin m c) (Xin m c) (qOf t h) (sOf t)) (Cert.Spec.nrm1 (Xin m c) (qOf t h) (sOf t)) else 0

/-! ## The accumulators after one point, from the accumulators before it -/

/-- A stored value of the segment-sum block, at an entry: the old entry plus the block's segment sum. -/
theorem val3 (x1 : Vec Ideal S5000x128 .f32) (x2 : Vec Ideal S5000x2 .i32) (xo3 : Vec Ideal S1x128x64 .f32) (k : Fin 128) (d : Fin 64) :
    k0_pay14 (F := Ideal) (k0_pay12 (F := Ideal) x1 x2 k0_pay5) (k0_pay13 (F := Ideal) x1 x2 k0_pay5) xo3 (ix3 (0 : Fin 1) k d)
      = xo3 (ix3 (0 : Fin 1) k d)
        + ((∑ ρ : Fin 5000, Cert.Spec.oh (x2 (ix2 ρ (0 : Fin 2))) k * x1 (ix2 ρ (Cert.Spec.lo d)))
          + (∑ ρ : Fin 5000, Cert.Spec.oh (x2 (ix2 ρ (1 : Fin 2))) k * x1 (ix2 ρ (Cert.Spec.hi d)))) :=
  (Payload.pay14_apply _ _ _ k d).trans (congrArg (xo3 (ix3 (0 : Fin 1) k d) + ·) (Payload.seg_apply x1 x2 k d))

/-- A stored value of the scalar block, at a lane. -/
theorem val5 (x0 x1 : Vec Ideal S5000x128 .f32) (xo5 : Vec Ideal S1x1x128 .f32) (l : Fin 128) :
    k0_pay1 (F := Ideal) (k0_pay16 (F := Ideal) (k0_pay7 (F := Ideal) x0 x1) (k0_pay8 (F := Ideal) x1) xo5) (ix3 (0 : Fin 1) (0 : Fin 1) l)
      = xo5 (ix3 (0 : Fin 1) (0 : Fin 1) l)
        + Cert.Spec.lane l (∑ ρ : Fin 5000, ∑ l' : Fin 128, (x0 (ix2 ρ l') - x1 (ix2 ρ l')) * (x0 (ix2 ρ l') - x1 (ix2 ρ l')))
            (∑ ρ : Fin 5000, ∑ l' : Fin 128, x1 (ix2 ρ l') * x1 (ix2 ρ l')) := by
  rw [PayloadScalar.pay16_apply, PayloadScalar.err_apply, PayloadScalar.nrm_apply]

end Cert.KernelIdeal.Val

end
-- ==== Proof.Acc.lean ====
/-
  The three accumulators after each point of the grid, and after a half's last point.

  After point t an accumulator entry is zero plus the sum of the contributions of the points from the first of t's
  half up to t (an induction on t: a first step starts from the stored zero, a later step adds to what the step
  before left); after the last point of half q it is the half's total, the sum over its fifty blocks.
-/
import proofs.«413849_j7507602833888_3_alg».proof.Proof.Spec
import proofs.«413849_j7507602833888_3_alg».proof.Proof.Fold
import Idealize.ShloMosaic.Lib.Pipeline.Value
import Idealize.ShloMosaic.Lib.ValueIdx
import Idealize.ShloMosaic.PureOps.Ideal.Laws

noncomputable section

open scoped BigOperators

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (m : (ℓ : Loc nD τ sig) → Buf (Elt Ideal) ℓ)

/-! ## Accumulator 3 -/

/-- After a half's first step: zero plus that block's contribution. -/
theorem point3_A (c : Dev nD) (t : Fin cfg0.N) (h0 : t.val % 50 = 0) (k : Fin 128) (d : Fin 64) :
    (outsAt0 m c t.val t.isLt).1 (ix3 (0 : Fin 1) k d) = Cert.Spec.zero + C3 m c k d t.val := by
  rw [outsAt0_A m c t h0]
  dsimp only
  rw [out_A3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)]
  refine (val3 (xblk m c t) (ablk m c t) _ k d).trans ?_
  rw [PayloadScalar.pay2_apply, seg_blk m c t (qOf t.val t.isLt) (sOf t.val) (qs_eq t.val t.isLt) k d]
  unfold C3
  rw [dif_pos t.isLt]

/-- After a later step: what the step before left plus that block's contribution. -/
theorem point3_B (c : Dev nD) (t : Fin cfg0.N) (h0 : ¬t.val % 50 = 0) (k : Fin 128) (d : Fin 64) :
    (outsAt0 m c t.val t.isLt).1 (ix3 (0 : Fin 1) k d)
      = (outsAt0 m c (t.val - 1) (Nat.lt_of_le_of_lt (Nat.sub_le _ _) t.isLt)).1 (ix3 (0 : Fin 1) k d) + C3 m c k d t.val := by
  rw [outsAt0_B m c t h0]
  dsimp only
  rw [out_B3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) _ _ _ _]
  rw [scratch_eq m c (t.val - 1) _]
  refine (val3 (xblk m c t) (ablk m c t) _ k d).trans ?_
  rw [seg_blk m c t (qOf t.val t.isLt) (sOf t.val) (qs_eq t.val t.isLt) k d]
  unfold C3
  rw [dif_pos t.isLt]

/-- After point t: zero plus the contributions of the points of t's half up to t. -/
theorem acc3 (c : Dev nD) (k : Fin 128) (d : Fin 64) : ∀ (t : ℕ) (h : t < cfg0.N),
    (outsAt0 m c t h).1 (ix3 (0 : Fin 1) k d) = Cert.Spec.zero + ∑ j ∈ Finset.range (t % 50 + 1), C3 m c k d (t - t % 50 + j)
  | 0, h => by
    refine (point3_A m c ⟨0, h⟩ rfl k d).trans ?_
    simp only [Nat.zero_mod, Nat.zero_add, Finset.sum_range_one, Nat.sub_zero, Nat.add_zero]
  | t + 1, h => by
    by_cases h0 : (t + 1) % 50 = 0
    · refine (point3_A m c ⟨t + 1, h⟩ h0 k d).trans ?_
      rw [h0]
      simp only [Nat.zero_add, Finset.sum_range_one, Nat.sub_zero, Nat.add_zero]
    · refine (point3_B m c ⟨t + 1, h⟩ h0 k d).trans ?_
      have e1 : (t + 1) % 50 = t % 50 + 1 := by omega
      have e2 : t + 1 - (t % 50 + 1) = t - t % 50 := by omega
      have e3 : t - t % 50 + (t % 50 + 1) = t + 1 := by omega
      rw [e1, e2, Finset.sum_range_succ, e3, ← add_assoc]
      exact congrArg (· + C3 m c k d (t + 1)) (acc3 c k d t (Nat.lt_of_succ_lt h))

/-- After a half's last point: the half's total. -/
theorem fin3 (c : Dev nD) (q : Fin 2) (h : 50 * q.val + 49 < cfg0.N) (k : Fin 128) (d : Fin 64) :
    (outsAt0 m c (50 * q.val + 49) h).1 (ix3 (0 : Fin 1) k d) = Cert.Spec.S3 (Xin m c) (Ain m c) q k d := by
  rw [acc3 m c k d (50 * q.val + 49) h]
  have e1 : (50 * q.val + 49) % 50 = 49 := by omega
  have e2 : 50 * q.val + 49 - 49 = 50 * q.val := by omega
  rw [e1, e2, show Cert.Spec.zero = 0 from Ideal.ofBits_zero_f32, zero_add]
  unfold Cert.Spec.S3
  rw [Finset.sum_range]
  refine Finset.sum_congr rfl fun s _ => ?_
  have hlt : 50 * q.val + s.val < cfg0.N := by have := N100; have := q.isLt; have := s.isLt; omega
  have hq : qOf (50 * q.val + s.val) hlt = q := Fin.ext (by show (50 * q.val + s.val) / 50 = q.val; have := s.isLt; omega)
  have hs : sOf (50 * q.val + s.val) = s := Fin.ext (by show (50 * q.val + s.val) % 50 = s.val; have := s.isLt; omega)
  unfold C3
  rw [dif_pos hlt, hq, hs]

/-! ## Accumulator 4 -/

/-- After a half's first step: zero plus that block's contribution. -/
theorem point4_A (c : Dev nD) (t : Fin cfg0.N) (h0 : t.val % 50 = 0) (k : Fin 128) (j : Fin 8) :
    (outsAt0 m c t.val t.isLt).2.1 (ix3 (0 : Fin 1) k j) = Cert.Spec.zero + C4 m c k t.val := by
  rw [outsAt0_A m c t h0]
  dsimp only
  rw [out_A4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)]
  refine (Payload.pay15_apply (ablk m c t) _ k j).trans ?_
  rw [PayloadScalar.pay3_apply, cnt_blk m c t (qOf t.val t.isLt) (sOf t.val) (qs_eq t.val t.isLt) k]
  unfold C4
  rw [dif_pos t.isLt]

/-- After a later step: what the step before left plus that block's contribution. -/
theorem point4_B (c : Dev nD) (t : Fin cfg0.N) (h0 : ¬t.val % 50 = 0) (k : Fin 128) (j : Fin 8) :
    (outsAt0 m c t.val t.isLt).2.1 (ix3 (0 : Fin 1) k j)
      = (outsAt0 m c (t.val - 1) (Nat.lt_of_le_of_lt (Nat.sub_le _ _) t.isLt)).2.1 (ix3 (0 : Fin 1) k j) + C4 m c k t.val := by
  rw [outsAt0_B m c t h0]
  dsimp only
  rw [out_B4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) _ _ _ _]
  rw [scratch_eq m c (t.val - 1) _]
  refine (Payload.pay15_apply (ablk m c t) _ k j).trans ?_
  rw [cnt_blk m c t (qOf t.val t.isLt) (sOf t.val) (qs_eq t.val t.isLt) k]
  unfold C4
  rw [dif_pos t.isLt]

/-- After point t: zero plus the contributions of the points of t's half up to t. -/
theorem acc4 (c : Dev nD) (k : Fin 128) (j : Fin 8) : ∀ (t : ℕ) (h : t < cfg0.N),
    (outsAt0 m c t h).2.1 (ix3 (0 : Fin 1) k j) = Cert.Spec.zero + ∑ j ∈ Finset.range (t % 50 + 1), C4 m c k (t - t % 50 + j)
  | 0, h => by
    refine (point4_A m c ⟨0, h⟩ rfl k j).trans ?_
    simp only [Nat.zero_mod, Nat.zero_add, Finset.sum_range_one, Nat.sub_zero, Nat.add_zero]
  | t + 1, h => by
    by_cases h0 : (t + 1) % 50 = 0
    · refine (point4_A m c ⟨t + 1, h⟩ h0 k j).trans ?_
      rw [h0]
      simp only [Nat.zero_add, Finset.sum_range_one, Nat.sub_zero, Nat.add_zero]
    · refine (point4_B m c ⟨t + 1, h⟩ h0 k j).trans ?_
      have e1 : (t + 1) % 50 = t % 50 + 1 := by omega
      have e2 : t + 1 - (t % 50 + 1) = t - t % 50 := by omega
      have e3 : t - t % 50 + (t % 50 + 1) = t + 1 := by omega
      rw [e1, e2, Finset.sum_range_succ, e3, ← add_assoc]
      exact congrArg (· + C4 m c k (t + 1)) (acc4 c k j t (Nat.lt_of_succ_lt h))

/-- After a half's last point: the half's total. -/
theorem fin4 (c : Dev nD) (q : Fin 2) (h : 50 * q.val + 49 < cfg0.N) (k : Fin 128) (j : Fin 8) :
    (outsAt0 m c (50 * q.val + 49) h).2.1 (ix3 (0 : Fin 1) k j) = Cert.Spec.S4 (Ain m c) q k := by
  rw [acc4 m c k j (50 * q.val + 49) h]
  have e1 : (50 * q.val + 49) % 50 = 49 := by omega
  have e2 : 50 * q.val + 49 - 49 = 50 * q.val := by omega
  rw [e1, e2, show Cert.Spec.zero = 0 from Ideal.ofBits_zero_f32, zero_add]
  unfold Cert.Spec.S4
  rw [Finset.sum_range]
  refine Finset.sum_congr rfl fun s _ => ?_
  have hlt : 50 * q.val + s.val < cfg0.N := by have := N100; have := q.isLt; have := s.isLt; omega
  have hq : qOf (50 * q.val + s.val) hlt = q := Fin.ext (by show (50 * q.val + s.val) / 50 = q.val; have := s.isLt; omega)
  have hs : sOf (50 * q.val + s.val) = s := Fin.ext (by show (50 * q.val + s.val) % 50 = s.val; have := s.isLt; omega)
  unfold C4
  rw [dif_pos hlt, hq, hs]

/-! ## Accumulator 5 -/

/-- After a half's first step: zero plus that block's contribution. -/
theorem point5_A (c : Dev nD) (t : Fin cfg0.N) (h0 : t.val % 50 = 0) (l : Fin 128) :
    (outsAt0 m c t.val t.isLt).2.2.1 (ix3 (0 : Fin 1) (0 : Fin 1) l) = Cert.Spec.zero + C5 m c l t.val := by
  rw [outsAt0_A m c t h0]
  dsimp only
  rw [out_A5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)]
  refine (val5 (rblk m c t) (xblk m c t) _ l).trans ?_
  rw [PayloadScalar.pay4_apply, err_blk m c t (qOf t.val t.isLt) (sOf t.val) (qs_eq t.val t.isLt), nrm_blk m c t (qOf t.val t.isLt) (sOf t.val) (qs_eq t.val t.isLt)]
  unfold C5
  rw [dif_pos t.isLt]

/-- After a later step: what the step before left plus that block's contribution. -/
theorem point5_B (c : Dev nD) (t : Fin cfg0.N) (h0 : ¬t.val % 50 = 0) (l : Fin 128) :
    (outsAt0 m c t.val t.isLt).2.2.1 (ix3 (0 : Fin 1) (0 : Fin 1) l)
      = (outsAt0 m c (t.val - 1) (Nat.lt_of_le_of_lt (Nat.sub_le _ _) t.isLt)).2.2.1 (ix3 (0 : Fin 1) (0 : Fin 1) l) + C5 m c l t.val := by
  rw [outsAt0_B m c t h0]
  dsimp only
  rw [out_B5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) _ _ _ _]
  refine (val5 (rblk m c t) (xblk m c t) _ l).trans ?_
  rw [err_blk m c t (qOf t.val t.isLt) (sOf t.val) (qs_eq t.val t.isLt), nrm_blk m c t (qOf t.val t.isLt) (sOf t.val) (qs_eq t.val t.isLt)]
  unfold C5
  rw [dif_pos t.isLt]

/-- After point t: zero plus the contributions of the points of t's half up to t. -/
theorem acc5 (c : Dev nD) (l : Fin 128) : ∀ (t : ℕ) (h : t < cfg0.N),
    (outsAt0 m c t h).2.2.1 (ix3 (0 : Fin 1) (0 : Fin 1) l) = Cert.Spec.zero + ∑ j ∈ Finset.range (t % 50 + 1), C5 m c l (t - t % 50 + j)
  | 0, h => by
    refine (point5_A m c ⟨0, h⟩ rfl l).trans ?_
    simp only [Nat.zero_mod, Nat.zero_add, Finset.sum_range_one, Nat.sub_zero, Nat.add_zero]
  | t + 1, h => by
    by_cases h0 : (t + 1) % 50 = 0
    · refine (point5_A m c ⟨t + 1, h⟩ h0 l).trans ?_
      rw [h0]
      simp only [Nat.zero_add, Finset.sum_range_one, Nat.sub_zero, Nat.add_zero]
    · refine (point5_B m c ⟨t + 1, h⟩ h0 l).trans ?_
      have e1 : (t + 1) % 50 = t % 50 + 1 := by omega
      have e2 : t + 1 - (t % 50 + 1) = t - t % 50 := by omega
      have e3 : t - t % 50 + (t % 50 + 1) = t + 1 := by omega
      rw [e1, e2, Finset.sum_range_succ, e3, ← add_assoc]
      exact congrArg (· + C5 m c l (t + 1)) (acc5 c l t (Nat.lt_of_succ_lt h))

/-- After a half's last point: the half's total. -/
theorem fin5 (c : Dev nD) (q : Fin 2) (h : 50 * q.val + 49 < cfg0.N) (l : Fin 128) :
    (outsAt0 m c (50 * q.val + 49) h).2.2.1 (ix3 (0 : Fin 1) (0 : Fin 1) l) = Cert.Spec.S5 (Rin m c) (Xin m c) q l := by
  rw [acc5 m c l (50 * q.val + 49) h]
  have e1 : (50 * q.val + 49) % 50 = 49 := by omega
  have e2 : 50 * q.val + 49 - 49 = 50 * q.val := by omega
  rw [e1, e2, show Cert.Spec.zero = 0 from Ideal.ofBits_zero_f32, zero_add]
  unfold Cert.Spec.S5
  rw [Finset.sum_range]
  refine Finset.sum_congr rfl fun s _ => ?_
  have hlt : 50 * q.val + s.val < cfg0.N := by have := N100; have := q.isLt; have := s.isLt; omega
  have hq : qOf (50 * q.val + s.val) hlt = q := Fin.ext (by show (50 * q.val + s.val) / 50 = q.val; have := s.isLt; omega)
  have hs : sOf (50 * q.val + s.val) = s := Fin.ext (by show (50 * q.val + s.val) % 50 = s.val; have := s.isLt; omega)
  unfold C5
  rw [dif_pos hlt, hq, hs]

end Cert.KernelIdeal.Val

end
-- ==== Proof.Final.lean ====
/-
  The three accumulator arrays after the grid.

  Each array has one slab per half; a half's slab is written back once, after the half's last point, and holds the
  half's totals.  The two slabs cover the array, so the array ends holding, at (half, ·, ·), that half's total.
-/
import proofs.«413849_j7507602833888_3_alg».proof.Proof.Spec
import proofs.«413849_j7507602833888_3_alg».proof.Proof.Algebra
import proofs.«413849_j7507602833888_3_alg».proof.Proof.Acc
import Idealize.ShloMosaic.Lib.Pipeline.Value
import Idealize.ShloMosaic.Lib.ValueIdx
import Idealize.ShloMosaic.PureOps.Ideal.Laws

noncomputable section

open scoped BigOperators

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (m : (ℓ : Loc nD τ sig) → Buf (Elt Ideal) ℓ)

/-! ## Accumulator array 3 -/

/-- The block index of window 3: the half on the first axis, zero on the others. -/
theorem idx3 : ∀ t : Fin cfg0.N, win0_3.index t (0 : Fin 3) = t.val / 50 ∧ win0_3.index t (1 : Fin 3) = 0 ∧ win0_3.index t (2 : Fin 3) = 0 :=
  (by decide +kernel : ∀ t : Fin grid0.N, _)

/-- What a half's last point writes back is that half's slab of the array of totals. -/
theorem flushed3_eq (c : Dev nD) (t : Fin cfg0.N) (hf : (cfg0.win 3).flush t = true) :
    (dats m 0 c).flushed 3 t = ((cfg0.win 3).blk t).view.read (Elt Ideal) (Cert.Spec.A3 (Xin m c) (Ain m c)) := by
  have h49 : t.val % 50 = 49 := (flush0_3 t).mp hf
  have hN := N100
  have htl : t.val < 100 := lt_of_lt_of_eq t.isLt hN
  have hq : t.val / 50 < 2 := by omega
  have ht : t.val = 50 * (t.val / 50) + 49 := by omega
  obtain ⟨e0, e1, e2⟩ := idx3 t
  show (cfg0.win 3).cut (grid0.coords t) ((dats m 0 c).after 3 t) = _
  rw [after0_3]
  funext j
  show (outsAt0 m c t.val t.isLt).1 j = Cert.Spec.A3 (Xin m c) (Ain m c) (((cfg0.win 3).blk t).view.emb j)
  have hj : (j : S1x128x64.Idx) = ix3 (0 : Fin 1) (⟨(j 1).val, (j 1).isLt⟩ : Fin 128) (⟨(j 2).val, (j 2).isLt⟩ : Fin 64) := by
    funext a
    match a with
    | ⟨0, _⟩ => exact Subsingleton.elim (α := Fin 1) _ _
    | ⟨1, _⟩ => rfl
    | ⟨2, _⟩ => rfl
  have he : ((cfg0.win 3).blk t).view.emb j = ix3 (⟨t.val / 50, hq⟩ : Fin 2) (⟨(j 1).val, (j 1).isLt⟩ : Fin 128) (⟨(j 2).val, (j 2).isLt⟩ : Fin 64) := by
    funext a
    apply Fin.ext
    match a with
    | ⟨0, _⟩ => show win0_3.index t (0 : Fin 3) * 1 + 1 * (j 0).val = t.val / 50; rw [e0]; have : (j 0).val < 1 := (j 0).isLt; omega
    | ⟨1, _⟩ => show win0_3.index t (1 : Fin 3) * 128 + 1 * (j 1).val = (j 1).val; rw [e1]; omega
    | ⟨2, _⟩ => show win0_3.index t (2 : Fin 3) * 64 + 1 * (j 2).val = (j 2).val; rw [e2]; omega
  rw [he, Cert.Spec.A3_apply]
  refine (congrArg (outsAt0 m c t.val t.isLt).1 hj).trans ?_
  have same : ∀ (u : ℕ) (hu : u < cfg0.N), u = t.val → outsAt0 m c u hu = outsAt0 m c t.val t.isLt := fun u hu e => by subst e; rfl
  rw [← same (50 * (t.val / 50) + 49) (by omega) ht.symm]
  exact fin3 m c (⟨t.val / 50, hq⟩ : Fin 2) (by show 50 * (t.val / 50) + 49 < cfg0.N; omega) (⟨(j 1).val, (j 1).isLt⟩ : Fin 128) (⟨(j 2).val, (j 2).isLt⟩ : Fin 64)

/-- An index of the array is in point t's block iff each coordinate is in the block's range on its axis. -/
theorem mem_blk3 (t : Fin cfg0.N) (i : S2x128x64.Idx) :
    i ∈ ((cfg0.win 3).blk t).view.set ↔ ∀ a : Fin 3, win0_3.index t a * S1x128x64.size a ≤ (i a).val ∧ (i a).val < win0_3.index t a * S1x128x64.size a + S1x128x64.size a := by
  show i ∈ ((View.whole main_v3_0).slice (win0_3.rect t)).set ↔ _
  rw [View.set_slice_whole, Rect.mem_set_unit]
  exact Iff.rfl

/-- Every index lies in the slab its half's last point writes back. -/
theorem cover3 (i : S2x128x64.Idx) : ∃ t : Fin cfg0.N, (cfg0.win 3).flush t = true ∧ i ∈ ((cfg0.win 3).blk t).view.set := by
  have hN := N100
  have hN' : grid0.N = 100 := N_0
  have h0 : (i 0).val < 2 := (i 0).isLt
  have h1 : (i 1).val < 128 := (i 1).isLt
  have h2 : (i 2).val < 64 := (i 2).isLt
  refine ⟨⟨50 * (i 0).val + 49, by omega⟩, (flush0_3 _).mpr (by show (50 * (i 0).val + 49) % 50 = 49; omega), ?_⟩
  rw [mem_blk3]
  obtain ⟨e0, e1, e2⟩ := idx3 ⟨50 * (i 0).val + 49, by omega⟩
  have e0' : win0_3.index ⟨50 * (i 0).val + 49, by omega⟩ (0 : Fin 3) = (i 0).val := by rw [e0]; show (50 * (i 0).val + 49) / 50 = (i 0).val; omega
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 64 ≤ (i 2).val ∧ (i 2).val < win0_3.index _ (2 : Fin 3) * 64 + 64; rw [e2]; omega

/-- So the array ends holding the two halves' totals. -/
theorem final3 (c : Dev nD) : (dats m 0 c).arrAt 3 cfg0.N = Cert.Spec.A3 (Xin m c) (Ain m c) :=
  (dats m 0 c).arrAt_eq_of_cover 3 (Cert.Spec.A3 (Xin m c) (Ain m c)) (flushed3_eq m c) cover3

/-! ## Accumulator array 4 -/

/-- The block index of window 4: the half on the first axis, zero on the others. -/
theorem idx4 : ∀ t : Fin cfg0.N, win0_4.index t (0 : Fin 3) = t.val / 50 ∧ win0_4.index t (1 : Fin 3) = 0 ∧ win0_4.index t (2 : Fin 3) = 0 :=
  (by decide +kernel : ∀ t : Fin grid0.N, _)

/-- What a half's last point writes back is that half's slab of the array of totals. -/
theorem flushed4_eq (c : Dev nD) (t : Fin cfg0.N) (hf : (cfg0.win 4).flush t = true) :
    (dats m 0 c).flushed 4 t = ((cfg0.win 4).blk t).view.read (Elt Ideal) (Cert.Spec.A4 (Ain m c)) := by
  have h49 : t.val % 50 = 49 := (flush0_4 t).mp hf
  have hN := N100
  have htl : t.val < 100 := lt_of_lt_of_eq t.isLt hN
  have hq : t.val / 50 < 2 := by omega
  have ht : t.val = 50 * (t.val / 50) + 49 := by omega
  obtain ⟨e0, e1, e2⟩ := idx4 t
  show (cfg0.win 4).cut (grid0.coords t) ((dats m 0 c).after 4 t) = _
  rw [after0_4]
  funext j
  show (outsAt0 m c t.val t.isLt).2.1 j = Cert.Spec.A4 (Ain m c) (((cfg0.win 4).blk t).view.emb j)
  have hj : (j : S1x128x8.Idx) = ix3 (0 : Fin 1) (⟨(j 1).val, (j 1).isLt⟩ : Fin 128) (⟨(j 2).val, (j 2).isLt⟩ : Fin 8) := by
    funext a
    match a with
    | ⟨0, _⟩ => exact Subsingleton.elim (α := Fin 1) _ _
    | ⟨1, _⟩ => rfl
    | ⟨2, _⟩ => rfl
  have he : ((cfg0.win 4).blk t).view.emb j = ix3 (⟨t.val / 50, hq⟩ : Fin 2) (⟨(j 1).val, (j 1).isLt⟩ : Fin 128) (⟨(j 2).val, (j 2).isLt⟩ : Fin 8) := by
    funext a
    apply Fin.ext
    match a with
    | ⟨0, _⟩ => show win0_4.index t (0 : Fin 3) * 1 + 1 * (j 0).val = t.val / 50; rw [e0]; have : (j 0).val < 1 := (j 0).isLt; omega
    | ⟨1, _⟩ => show win0_4.index t (1 : Fin 3) * 128 + 1 * (j 1).val = (j 1).val; rw [e1]; omega
    | ⟨2, _⟩ => show win0_4.index t (2 : Fin 3) * 8 + 1 * (j 2).val = (j 2).val; rw [e2]; omega
  rw [he, Cert.Spec.A4_apply]
  refine (congrArg (outsAt0 m c t.val t.isLt).2.1 hj).trans ?_
  have same : ∀ (u : ℕ) (hu : u < cfg0.N), u = t.val → outsAt0 m c u hu = outsAt0 m c t.val t.isLt := fun u hu e => by subst e; rfl
  rw [← same (50 * (t.val / 50) + 49) (by omega) ht.symm]
  exact fin4 m c (⟨t.val / 50, hq⟩ : Fin 2) (by show 50 * (t.val / 50) + 49 < cfg0.N; omega) (⟨(j 1).val, (j 1).isLt⟩ : Fin 128) (⟨(j 2).val, (j 2).isLt⟩ : Fin 8)

/-- An index of the array is in point t's block iff each coordinate is in the block's range on its axis. -/
theorem mem_blk4 (t : Fin cfg0.N) (i : S2x128x8.Idx) :
    i ∈ ((cfg0.win 4).blk t).view.set ↔ ∀ a : Fin 3, win0_4.index t a * S1x128x8.size a ≤ (i a).val ∧ (i a).val < win0_4.index t a * S1x128x8.size a + S1x128x8.size a := by
  show i ∈ ((View.whole main_v3_1).slice (win0_4.rect t)).set ↔ _
  rw [View.set_slice_whole, Rect.mem_set_unit]
  exact Iff.rfl

/-- Every index lies in the slab its half's last point writes back. -/
theorem cover4 (i : S2x128x8.Idx) : ∃ t : Fin cfg0.N, (cfg0.win 4).flush t = true ∧ i ∈ ((cfg0.win 4).blk t).view.set := by
  have hN := N100
  have hN' : grid0.N = 100 := N_0
  have h0 : (i 0).val < 2 := (i 0).isLt
  have h1 : (i 1).val < 128 := (i 1).isLt
  have h2 : (i 2).val < 8 := (i 2).isLt
  refine ⟨⟨50 * (i 0).val + 49, by omega⟩, (flush0_4 _).mpr (by show (50 * (i 0).val + 49) % 50 = 49; omega), ?_⟩
  rw [mem_blk4]
  obtain ⟨e0, e1, e2⟩ := idx4 ⟨50 * (i 0).val + 49, by omega⟩
  have e0' : win0_4.index ⟨50 * (i 0).val + 49, by omega⟩ (0 : Fin 3) = (i 0).val := by rw [e0]; show (50 * (i 0).val + 49) / 50 = (i 0).val; omega
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 128 ≤ (i 1).val ∧ (i 1).val < win0_4.index _ (1 : Fin 3) * 128 + 128; rw [e1]; omega
  | ⟨2, _⟩ => show win0_4.index _ (2 : Fin 3) * 8 ≤ (i 2).val ∧ (i 2).val < win0_4.index _ (2 : Fin 3) * 8 + 8; rw [e2]; omega

/-- So the array ends holding the two halves' totals. -/
theorem final4 (c : Dev nD) : (dats m 0 c).arrAt 4 cfg0.N = Cert.Spec.A4 (Ain m c) :=
  (dats m 0 c).arrAt_eq_of_cover 4 (Cert.Spec.A4 (Ain m c)) (flushed4_eq m c) cover4

/-! ## Accumulator array 5 -/

/-- The block index of window 5: the half on the first axis, zero on the others. -/
theorem idx5 : ∀ t : Fin cfg0.N, win0_5.index t (0 : Fin 3) = t.val / 50 ∧ win0_5.index t (1 : Fin 3) = 0 ∧ win0_5.index t (2 : Fin 3) = 0 :=
  (by decide +kernel : ∀ t : Fin grid0.N, _)

/-- What a half's last point writes back is that half's slab of the array of totals. -/
theorem flushed5_eq (c : Dev nD) (t : Fin cfg0.N) (hf : (cfg0.win 5).flush t = true) :
    (dats m 0 c).flushed 5 t = ((cfg0.win 5).blk t).view.read (Elt Ideal) (Cert.Spec.A5 (Rin m c) (Xin m c)) := by
  have h49 : t.val % 50 = 49 := (flush0_5 t).mp hf
  have hN := N100
  have htl : t.val < 100 := lt_of_lt_of_eq t.isLt hN
  have hq : t.val / 50 < 2 := by omega
  have ht : t.val = 50 * (t.val / 50) + 49 := by omega
  obtain ⟨e0, e1, e2⟩ := idx5 t
  show (cfg0.win 5).cut (grid0.coords t) ((dats m 0 c).after 5 t) = _
  rw [after0_5]
  funext j
  show (outsAt0 m c t.val t.isLt).2.2.1 j = Cert.Spec.A5 (Rin m c) (Xin m c) (((cfg0.win 5).blk t).view.emb j)
  have hj : (j : S1x1x128.Idx) = ix3 (0 : Fin 1) (0 : Fin 1) (⟨(j 2).val, (j 2).isLt⟩ : Fin 128) := by
    funext a
    match a with
    | ⟨0, _⟩ => exact Subsingleton.elim (α := Fin 1) _ _
    | ⟨1, _⟩ => exact Subsingleton.elim (α := Fin 1) _ _
    | ⟨2, _⟩ => rfl
  have he : ((cfg0.win 5).blk t).view.emb j = ix3 (⟨t.val / 50, hq⟩ : Fin 2) (0 : Fin 1) (⟨(j 2).val, (j 2).isLt⟩ : Fin 128) := by
    funext a
    apply Fin.ext
    match a with
    | ⟨0, _⟩ => show win0_5.index t (0 : Fin 3) * 1 + 1 * (j 0).val = t.val / 50; rw [e0]; have : (j 0).val < 1 := (j 0).isLt; omega
    | ⟨1, _⟩ => show win0_5.index t (1 : Fin 3) * 1 + 1 * (j 1).val = 0; rw [e1]; have : (j 1).val < 1 := (j 1).isLt; omega
    | ⟨2, _⟩ => show win0_5.index t (2 : Fin 3) * 128 + 1 * (j 2).val = (j 2).val; rw [e2]; omega
  rw [he, Cert.Spec.A5_apply]
  refine (congrArg (outsAt0 m c t.val t.isLt).2.2.1 hj).trans ?_
  have same : ∀ (u : ℕ) (hu : u < cfg0.N), u = t.val → outsAt0 m c u hu = outsAt0 m c t.val t.isLt := fun u hu e => by subst e; rfl
  rw [← same (50 * (t.val / 50) + 49) (by omega) ht.symm]
  exact fin5 m c (⟨t.val / 50, hq⟩ : Fin 2) (by show 50 * (t.val / 50) + 49 < cfg0.N; omega) (⟨(j 2).val, (j 2).isLt⟩ : Fin 128)

/-- An index of the array is in point t's block iff each coordinate is in the block's range on its axis. -/
theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v3_2).slice (win0_5.rect t)).set ↔ _
  rw [View.set_slice_whole, Rect.mem_set_unit]
  exact Iff.rfl

/-- Every index lies in the slab its half's last point writes back. -/
theorem cover5 (i : S2x1x128.Idx) : ∃ t : Fin cfg0.N, (cfg0.win 5).flush t = true ∧ i ∈ ((cfg0.win 5).blk t).view.set := by
  have hN := N100
  have hN' : grid0.N = 100 := N_0
  have h0 : (i 0).val < 2 := (i 0).isLt
  have h1 : (i 1).val < 1 := (i 1).isLt
  have h2 : (i 2).val < 128 := (i 2).isLt
  refine ⟨⟨50 * (i 0).val + 49, by omega⟩, (flush0_5 _).mpr (by show (50 * (i 0).val + 49) % 50 = 49; omega), ?_⟩
  rw [mem_blk5]
  obtain ⟨e0, e1, e2⟩ := idx5 ⟨50 * (i 0).val + 49, by omega⟩
  have e0' : win0_5.index ⟨50 * (i 0).val + 49, by omega⟩ (0 : Fin 3) = (i 0).val := by rw [e0]; show (50 * (i 0).val + 49) / 50 = (i 0).val; omega
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 1 ≤ (i 1).val ∧ (i 1).val < win0_5.index _ (1 : Fin 3) * 1 + 1; rw [e1]; omega
  | ⟨2, _⟩ => show win0_5.index _ (2 : Fin 3) * 128 ≤ (i 2).val ∧ (i 2).val < win0_5.index _ (2 : Fin 3) * 128 + 128; rw [e2]; omega

/-- So the array ends holding the two halves' totals. -/
theorem final5 (c : Dev nD) : (dats m 0 c).arrAt 5 cfg0.N = Cert.Spec.A5 (Rin m c) (Xin m c) :=
  (dats m 0 c).arrAt_eq_of_cover 5 (Cert.Spec.A5 (Rin m c) (Xin m c)) (flushed5_eq m c) cover5

end Cert.KernelIdeal.Val

end
-- ==== Proof.Tail.lean ====
/-
  The host operations after the region, read as extended reals: from the three accumulator arrays the region leaves
  (two halves each) and the table of centres, the program adds the halves, pads the table with zero rows to 128
  clusters, and combines   total = 1·recon + 1·cluster,   cluster = Σ X² − 2 · Σ C·seg + Σ count · Σ C².
-/
import proofs.«413849_j7507602833888_3_alg».proof.Proof.Spec
import proofs.«413849_j7507602833888_3_alg».proof.Proof.Gen.KernelIdeal.Frame
import Idealize.ShloMosaic.Lib.Pipeline.Value
import Idealize.ShloMosaic.Lib.StableHlo.Run
import Idealize.ShloMosaic.PureOps.Ideal.Laws
import Idealize.ShloMosaic.Lib.ValueIdx
import Idealize.ShloMosaic.Lib.ValueIdxRank1
import Idealize.ShloMosaic.Lib.KernelVsHost

noncomputable section

open scoped BigOperators

namespace Cert.KernelIdeal.Tail

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)
variable (dats : (p : Fin 1) → (c : Dev nD) → Dat τ (Elt Ideal) Unit ℕ (UR sig nD τ) ℕ (cfgs p) c)

/-- The three arrays the region leaves, under the names the tail reads them by. -/
abbrev a3 (c : Dev nD) : Cert.Spec.SSeg.Idx → EReal := (dats 0 c).arrAt 3 cfg0.N
abbrev a4 (c : Dev nD) : Cert.Spec.SCnt.Idx → EReal := (dats 0 c).arrAt 4 cfg0.N
abbrev a5 (c : Dev nD) : Cert.Spec.SSca.Idx → EReal := (dats 0 c).arrAt 5 cfg0.N

/-! ## The tail's operations as pure terms of the three arrays and the table -/

/-- The initial value of every sum: the scalar `+0.0`. -/
abbrev tz : FVec Ideal S_ .f32 := constant (F := Ideal) S_ .f32 0x00000000#32

/-- The two halves added: the segment sums, the counts, the scalar lanes. -/
def tSeg (x3 : FVec Ideal S2x128x64 .f32) : FVec Ideal S128x64 .f32 :=
  Host.reduceAdd (F := Ideal) x3 tz reducesTo_S2x128x64_S128x64_d0 h_S_
def tCnt (x4 : FVec Ideal S2x128x8 .f32) : FVec Ideal S128x8 .f32 :=
  Host.reduceAdd (F := Ideal) x4 tz reducesTo_S2x128x8_S128x8_d0 h_S_
def tSca (x5 : FVec Ideal S2x1x128 .f32) : FVec Ideal S1x128 .f32 :=
  Host.reduceAdd (F := Ideal) x5 tz reducesTo_S2x1x128_S1x128_d0 h_S_

/-- Lane 0 and lane 1 of the scalar row, as scalars. -/
def tRecon (x5 : FVec Ideal S2x1x128 .f32) : FVec Ideal S_ .f32 :=
  shapeCast S_ (extractStridedSlice S1x1 ![0, 0] (tSca x5) slices_S1x128_S1x1_0_0) shapeCasts_S1x1_S_
def tNorm (x5 : FVec Ideal S2x1x128 .f32) : FVec Ideal S_ .f32 :=
  shapeCast S_ (extractStridedSlice S1x1 ![0, 1] (tSca x5) slices_S1x128_S1x1_0_1) shapeCasts_S1x1_S_

/-- The table padded with rows of the converted integer zero. -/
def tPad (C : FVec Ideal S100x64 .f32) : FVec Ideal S128x64 .f32 :=
  pad S128x64 ![0, 0] ![28, 0] ![0, 0] C (sitofp (F := Ideal) .f32 (constantI S_ 32 0#32)) pads_S100x64_S128x64_0280_000 h_S_

def tCross (x3 : FVec Ideal S2x128x64 .f32) (C : FVec Ideal S100x64 .f32) : FVec Ideal S_ .f32 :=
  Host.reduceAdd (F := Ideal) (mulf (tPad C) (tSeg x3)) tz reducesTo_S128x64_S_d0_1 h_S_
def tCn (C : FVec Ideal S100x64 .f32) : FVec Ideal S128 .f32 :=
  Host.reduceAdd (F := Ideal) (mulf (tPad C) (tPad C)) tz reducesTo_S128x64_S128_d1 h_S_
def tCol (x4 : FVec Ideal S2x128x8 .f32) : FVec Ideal S128 .f32 :=
  shapeCast S128 (extractStridedSlice S128x1 ![0, 0] (tCnt x4) slices_S128x8_S128x1_0_0) shapeCasts_S128x1_S128
def tQuad (x4 : FVec Ideal S2x128x8 .f32) (C : FVec Ideal S100x64 .f32) : FVec Ideal S_ .f32 :=
  Host.reduceAdd (F := Ideal) (mulf (tCol x4) (tCn C)) tz reducesTo_S128_S_d0 h_S_
def tCluster (x3 : FVec Ideal S2x128x64 .f32) (x4 : FVec Ideal S2x128x8 .f32) (x5 : FVec Ideal S2x1x128 .f32)
    (C : FVec Ideal S100x64 .f32) : FVec Ideal S_ .f32 :=
  addf (subf (tNorm x5) (mulf (constant (F := Ideal) S_ .f32 0x40000000#32) (tCross x3 C))) (tQuad x4 C)
def tTotal (x3 : FVec Ideal S2x128x64 .f32) (x4 : FVec Ideal S2x128x8 .f32) (x5 : FVec Ideal S2x1x128 .f32)
    (C : FVec Ideal S100x64 .f32) : FVec Ideal S_ .f32 :=
  addf (mulf (constant (F := Ideal) S_ .f32 0x3F800000#32) (tRecon x5))
    (mulf (constant (F := Ideal) S_ .f32 0x3F800000#32) (tCluster x3 x4 x5 C))

/-! ## The pure terms read at an index -/

section Pure

variable (x3 : FVec Ideal S2x128x64 .f32) (x4 : FVec Ideal S2x128x8 .f32) (x5 : FVec Ideal S2x1x128 .f32)
  (C : FVec Ideal S100x64 .f32)

/-- A rank-0 index sits at position 0. -/
theorem pos_S_ (i : S_.Idx) : (S_.rowMajor i).val = 0 := Shape.rowMajorPi_zero _ i

/-- Adding the two halves, entry by entry. -/
theorem tSeg_apply (k : Fin 128) (d : Fin 64) : tSeg x3 (ix2 k d) = Cert.Spec.Kseg x3 k d := by
  unfold tSeg Cert.Spec.Kseg
  simp only [Host.reduceAdd, Ideal.hostReduceAdd_def]
  refine (Ideal.hostReduceAdd_single reducesTo_S2x128x64_S128x64_d0 (by decide : S2x128x64.Reduces [0] S128x64) x3 _ (ix2 k d)).trans ?_
  refine congrArg (fun s => Cert.Spec.zero + s) (Finset.sum_congr rfl fun q _ => congrArg x3 ?_)
  funext a; match a with | ⟨0, _⟩ => rfl | ⟨1, _⟩ => rfl | ⟨2, _⟩ => rfl

theorem tCnt_apply (k : Fin 128) (j : Fin 8) : tCnt x4 (ix2 k j) = Cert.Spec.zero + ∑ q : Fin 2, x4 (ix3 q k j) := by
  unfold tCnt
  simp only [Host.reduceAdd, Ideal.hostReduceAdd_def]
  refine (Ideal.hostReduceAdd_single reducesTo_S2x128x8_S128x8_d0 (by decide : S2x128x8.Reduces [0] S128x8) x4 _ (ix2 k j)).trans ?_
  refine congrArg (fun s => Cert.Spec.zero + s) (Finset.sum_congr rfl fun q _ => congrArg x4 ?_)
  funext a; match a with | ⟨0, _⟩ => rfl | ⟨1, _⟩ => rfl | ⟨2, _⟩ => rfl

theorem tSca_apply (l : Fin 128) : tSca x5 (ix2 (0 : Fin 1) l) = Cert.Spec.Ksca x5 l := by
  unfold tSca Cert.Spec.Ksca
  simp only [Host.reduceAdd, Ideal.hostReduceAdd_def]
  refine (Ideal.hostReduceAdd_single reducesTo_S2x1x128_S1x128_d0 (by decide : S2x1x128.Reduces [0] S1x128) x5 _ (ix2 (0 : Fin 1) l)).trans ?_
  refine congrArg (fun s => Cert.Spec.zero + s) (Finset.sum_congr rfl fun q _ => congrArg x5 ?_)
  funext a; match a with | ⟨0, _⟩ => rfl | ⟨1, _⟩ => rfl | ⟨2, _⟩ => rfl

/-- Lane 0 of the scalar row is the reconstruction error, lane 1 the squared norm. -/
theorem tRecon_apply (i : S_.Idx) : tRecon x5 i = Cert.Spec.Krecon x5 := by
  unfold tRecon Cert.Spec.Krecon
  refine (shapeCast_apply _ shapeCasts_S1x1_S_ i (ix2 (0 : Fin 1) (0 : Fin 1)) ?_).trans ?_
  · rw [Shape.rowMajor_val_two, pos_S_]; rfl
  · refine (extractStridedSlice_apply _ _ slices_S1x128_S1x1_0_0 (ix2 (0 : Fin 1) (0 : Fin 1)) (ix2 (0 : Fin 1) (0 : Fin 128))
      (fun a => match a with | ⟨0, _⟩ => rfl | ⟨1, _⟩ => rfl)).trans ?_
    exact tSca_apply x5 0

theorem tNorm_apply (i : S_.Idx) : tNorm x5 i = Cert.Spec.Ksca x5 1 := by
  unfold tNorm
  refine (shapeCast_apply _ shapeCasts_S1x1_S_ i (ix2 (0 : Fin 1) (0 : Fin 1)) ?_).trans ?_
  · rw [Shape.rowMajor_val_two, pos_S_]; rfl
  · refine (extractStridedSlice_apply _ _ slices_S1x128_S1x1_0_1 (ix2 (0 : Fin 1) (0 : Fin 1)) (ix2 (0 : Fin 1) (1 : Fin 128))
      (fun a => match a with | ⟨0, _⟩ => rfl | ⟨1, _⟩ => rfl)).trans ?_
    exact tSca_apply x5 1

end Pure

section Pure2

variable (x3 : FVec Ideal S2x128x64 .f32) (x4 : FVec Ideal S2x128x8 .f32) (x5 : FVec Ideal S2x1x128 .f32)
  (C : FVec Ideal S100x64 .f32)

/-- The padded table: the table's row below row 100, the converted integer zero from there on. -/
theorem tPad_apply (k : Fin 128) (d : Fin 64) : tPad C (ix2 k d) = Cert.Spec.Cpad C k d := by
  unfold tPad Cert.Spec.Cpad
  by_cases h : k.val < 100
  · rw [dif_pos h]
    exact pad_apply_of_inside ![0, 0] ![28, 0] ![0, 0] C _ pads_S100x64_S128x64_0280_000 h_S_ (ix2 k d)
      (ix2 (⟨k.val, h⟩ : Fin 100) d)
      (fun a => match a with
        | ⟨0, _⟩ => by show k.val = 0 + k.val * (0 + 1); omega
        | ⟨1, _⟩ => by show d.val = 0 + d.val * (0 + 1); omega)
  · rw [dif_neg h]
    refine (pad_apply_of_not_inside ![0, 0] ![28, 0] ![0, 0] C _ pads_S100x64_S128x64_0280_000 h_S_ (ix2 k d) (0 : Fin 2) ?_).trans ?_
    · show ¬ (0 ≤ k.val ∧ (k.val - 0) % (0 + 1) = 0 ∧ (k.val - 0) / (0 + 1) < 100)
      omega
    · show ((((0#32 : BitVec 32).toInt : ℝ)) : EReal) = Ideal.ofBits .f32 0x00000000#32
      rw [Ideal.ofBits_zero_f32]; simp

/-- The cross term: every padded centre entry times its segment sum, all added. -/
theorem tCross_apply (i : S_.Idx) : tCross x3 C i = Cert.Spec.Kcross x3 C := by
  unfold tCross Cert.Spec.Kcross
  simp only [Host.reduceAdd, Ideal.hostReduceAdd_def]
  refine (Ideal.hostReduceAdd_total reducesTo_S128x64_S_d0_1 (fun b => b.elim0) _ _ i).trans ?_
  refine congrArg (fun s => Cert.Spec.zero + s)
    ((sum_idx2 _).trans (Finset.sum_congr rfl fun k _ => Finset.sum_congr rfl fun d _ => ?_))
  show tPad C (ix2 k d) * tSeg x3 (ix2 k d) = _
  rw [tPad_apply, tSeg_apply]

/-- A padded centre's squared length. -/
theorem tCn_apply (k : Fin 128) : tCn C (ix1 k) = Cert.Spec.Knorm C k := by
  have h : S128x64.Reduces [1] S128 := by decide
  unfold tCn Cert.Spec.Knorm
  simp only [Host.reduceAdd, Ideal.hostReduceAdd_def]
  refine (Ideal.hostReduceAdd_single reducesTo_S128x64_S128_d1 h _ _ (ix1 k)).trans ?_
  refine congrArg (fun s => Cert.Spec.zero + s) (Finset.sum_congr rfl fun (d : Fin 64) _ => ?_)
  have e : h.lift (ix1 k) d = ix2 k d := by
    funext a; match a with | ⟨0, _⟩ => rfl | ⟨1, _⟩ => rfl
  rw [e]
  show tPad C (ix2 k d) * tPad C (ix2 k d) = _
  rw [tPad_apply]

/-- Column 0 of the counts. -/
theorem tCol_apply (k : Fin 128) : tCol x4 (ix1 k) = Cert.Spec.Kcnt x4 k := by
  unfold tCol Cert.Spec.Kcnt
  refine (shapeCast_apply _ shapeCasts_S128x1_S128 (ix1 k) (ix2 k (0 : Fin 1)) ?_).trans ?_
  · rw [Shape.rowMajor_val_two, Shape.rowMajor_val_one]; show k.val * 1 + 0 = k.val; omega
  · refine (extractStridedSlice_apply _ _ slices_S128x8_S128x1_0_0 (ix2 k (0 : Fin 1)) (ix2 k (0 : Fin 8))
      (fun a => match a with
        | ⟨0, _⟩ => by show k.val = 0 + k.val; omega
        | ⟨1, _⟩ => rfl)).trans ?_
    exact tCnt_apply x4 k 0

/-- The quadratic term: each cluster's count times its centre's squared length, all added. -/
theorem tQuad_apply (i : S_.Idx) : tQuad x4 C i = Cert.Spec.Kquad x4 C := by
  unfold tQuad Cert.Spec.Kquad
  simp only [Host.reduceAdd, Ideal.hostReduceAdd_def]
  refine (Ideal.hostReduceAdd_total reducesTo_S128_S_d0 (fun b => b.elim0) _ _ i).trans ?_
  refine congrArg (fun s => Cert.Spec.zero + s)
    ((Equiv.sum_comp (idxEquiv1 (n := 128)).symm _).symm.trans (Finset.sum_congr rfl fun k _ => ?_))
  show tCol x4 (ix1 k) * tCn C (ix1 k) = _
  rw [tCol_apply, tCn_apply]

/-- The cluster loss and the total, assembled. -/
theorem tCluster_apply (i : S_.Idx) : tCluster x3 x4 x5 C i = Cert.Spec.Kcluster x3 x4 x5 C := by
  unfold Cert.Spec.Kcluster
  show tNorm x5 i - Cert.Spec.two * tCross x3 C i + tQuad x4 C i = _
  rw [tNorm_apply, tCross_apply, tQuad_apply]

theorem tTotal_apply (i : S_.Idx) : tTotal x3 x4 x5 C i = Cert.Spec.Ktotal x3 x4 x5 C := by
  unfold Cert.Spec.Ktotal
  show Cert.Spec.one * tRecon x5 i + Cert.Spec.one * tCluster x3 x4 x5 C i = _
  rw [tRecon_apply, tCluster_apply]

end Pure2

/-! ## The tail's results are those terms of the region's arrays -/

section Run

/-- What the region leaves: each of its three arrays at the proof data's final contents, the table as launched. -/
theorem wa3 (c : Dev nD) :
    Pipeline.withArrays (cfgs 0).spec c (V0 m c) (fun w => (dats 0 c).arrAt w (cfgs 0).N) (Proc.devRef .tc main_v3_0) = a3 dats c :=
  Pipeline.withArrays_arr spec0 launch0.win.arr_inj c _ _ 3
theorem wa4 (c : Dev nD) :
    Pipeline.withArrays (cfgs 0).spec c (V0 m c) (fun w => (dats 0 c).arrAt w (cfgs 0).N) (Proc.devRef .tc main_v3_1) = a4 dats c :=
  Pipeline.withArrays_arr spec0 launch0.win.arr_inj c _ _ 4
theorem wa5 (c : Dev nD) :
    Pipeline.withArrays (cfgs 0).spec c (V0 m c) (fun w => (dats 0 c).arrAt w (cfgs 0).N) (Proc.devRef .tc main_v3_2) = a5 dats c :=
  Pipeline.withArrays_arr spec0 launch0.win.arr_inj c _ _ 5
theorem waC (c : Dev nD) :
    Pipeline.withArrays (cfgs 0).spec c (V0 m c) (fun w => (dats 0 c).arrAt w (cfgs 0).N) (Proc.devRef .tc main_arg3)
      = m ((c.tc : Thread nD τ).loc main_arg3) :=
  (Pipeline.withArrays_of_ne _ c (V0 m c) _ main_arg3 (by decide : ∀ w, Pipeline.arrRef spec0 w ≠ main_arg3)).trans (V_main_arg3 m c)

theorem run_recon (c : Dev nD) :
    Pipeline.afterTail₀ cfgs dats 0 (V0 m) [hostOps1, hostOps1_1, hostOps1_2] c main_v8 = tRecon (a5 dats c) := by
  unfold Pipeline.afterTail₀
  simp only [hostOps1, hostOps1_1, hostOps1_2, List.flatten_cons, List.flatten_nil, List.append_nil, List.cons_append, List.nil_append]
  after_results_simp
  rw [wa5 m dats c]
  rfl

set_option maxHeartbeats 2000000 in
theorem run_cluster (c : Dev nD) :
    Pipeline.afterTail₀ cfgs dats 0 (V0 m) [hostOps1, hostOps1_1, hostOps1_2] c main_v22
      = tCluster (a3 dats c) (a4 dats c) (a5 dats c) (m ((c.tc : Thread nD τ).loc main_arg3)) := by
  unfold Pipeline.afterTail₀
  simp only [hostOps1, hostOps1_1, hostOps1_2, List.flatten_cons, List.flatten_nil, List.append_nil, List.cons_append, List.nil_append]
  after_results_simp
  rw [wa3 m dats c, wa4 m dats c, wa5 m dats c, waC m dats c]
  rfl

set_option maxHeartbeats 2000000 in
theorem run_total (c : Dev nD) :
    Pipeline.afterTail₀ cfgs dats 0 (V0 m) [hostOps1, hostOps1_1, hostOps1_2] c main_v25
      = tTotal (a3 dats c) (a4 dats c) (a5 dats c) (m ((c.tc : Thread nD τ).loc main_arg3)) := by
  unfold Pipeline.afterTail₀
  simp only [hostOps1, hostOps1_1, hostOps1_2, List.flatten_cons, List.flatten_nil, List.append_nil, List.cons_append, List.nil_append]
  after_results_simp
  rw [wa3 m dats c, wa4 m dats c, wa5 m dats c, waC m dats c]
  rfl

end Run

/-- The reconstruction error the program returns. -/
theorem tail_recon (c : Dev nD) :
    Pipeline.afterTail₀ cfgs dats 0 (V0 m) [hostOps1, hostOps1_1, hostOps1_2] c main_v8
      = fun _ => Cert.Spec.Krecon (a5 dats c) :=
  (run_recon m dats c).trans (funext fun i => tRecon_apply (a5 dats c) i)

/-- The cluster loss it returns. -/
theorem tail_cluster (c : Dev nD) :
    Pipeline.afterTail₀ cfgs dats 0 (V0 m) [hostOps1, hostOps1_1, hostOps1_2] c main_v22
      = fun _ => Cert.Spec.Kcluster (a3 dats c) (a4 dats c) (a5 dats c) (m ((c.tc : Thread nD τ).loc main_arg3)) :=
  (run_cluster m dats c).trans (funext fun i => tCluster_apply (a3 dats c) (a4 dats c) (a5 dats c) _ i)

/-- The total it returns. -/
theorem tail_total (c : Dev nD) :
    Pipeline.afterTail₀ cfgs dats 0 (V0 m) [hostOps1, hostOps1_1, hostOps1_2] c main_v25
      = fun _ => Cert.Spec.Ktotal (a3 dats c) (a4 dats c) (a5 dats c) (m ((c.tc : Thread nD τ).loc main_arg3)) :=
  (run_total m dats c).trans (funext fun i => tTotal_apply (a3 dats c) (a4 dats c) (a5 dats c) _ i)

end Cert.KernelIdeal.Tail

end
-- ==== Proof.KernelRun.lean ====
/-
  The kernel program's run, read: its three results as the quantities of the specification.

  The region leaves the three accumulator arrays at the two halves' totals; the host operations after it turn the
  arrays and the centres into the three losses; the four argument arrays end as they were launched.
-/
import proofs.«413849_j7507602833888_3_alg».proof.Proof.Spec
import proofs.«413849_j7507602833888_3_alg».proof.Proof.Algebra
import proofs.«413849_j7507602833888_3_alg».proof.Proof.Final
import proofs.«413849_j7507602833888_3_alg».proof.Proof.Tail
import Idealize.ShloMosaic.Lib.Pipeline.Value
import Idealize.ShloMosaic.Lib.ValueIdx
import Idealize.ShloMosaic.PureOps.Ideal.Laws

noncomputable section

open scoped BigOperators

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (m : (ℓ : Loc nD τ sig) → Buf (Elt Ideal) ℓ) (ρ : Dev nD → PrngReg)

/-- The three results, from the launch contents of the four arguments. -/
abbrev total (c : Dev nD) : EReal :=
  Cert.Spec.Ktotal (Cert.Spec.A3 (Xin m c) (Ain m c)) (Cert.Spec.A4 (Ain m c)) (Cert.Spec.A5 (Rin m c) (Xin m c)) (Cin m c)
abbrev recon (c : Dev nD) : EReal := Cert.Spec.Krecon (Cert.Spec.A5 (Rin m c) (Xin m c))
abbrev cluster (c : Dev nD) : EReal :=
  Cert.Spec.Kcluster (Cert.Spec.A3 (Xin m c) (Ain m c)) (Cert.Spec.A4 (Ain m c)) (Cert.Spec.A5 (Rin m c) (Xin m c)) (Cin m c)

theorem arrays_eq (c : Dev nD) :
    Tail.a3 (dats m) c = Cert.Spec.A3 (Xin m c) (Ain m c) ∧ Tail.a4 (dats m) c = Cert.Spec.A4 (Ain m c)
      ∧ Tail.a5 (dats m) c = Cert.Spec.A5 (Rin m c) (Xin m c) :=
  ⟨final3 m c, final4 m c, final5 m c⟩

/-- Every weakly fair execution of the kernel program ends with its three results at those quantities and its
    arguments unchanged. -/
theorem run : θ_run defs (onTc (τ := τ) (main (F := Ideal))) ⟨m, fun _ => 0, ρ⟩ fun r => ∀ c : Dev nD,
      r.2.mem ((c.tc : Thread nD τ).loc main_v25) = (fun _ => total m c)
      ∧ r.2.mem ((c.tc : Thread nD τ).loc main_v8) = (fun _ => recon m c)
      ∧ r.2.mem ((c.tc : Thread nD τ).loc main_v22) = (fun _ => cluster m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  obtain ⟨e3, e4, e5⟩ := arrays_eq m c
  refine ⟨?_, ?_, ?_, ?_, ?_, ?_, ?_⟩
  · refine ((h c).2 main_v25 (Pipeline.mem_restRefs_of main_v25 (by decide) (by decide))).trans ?_
    rw [Tail.tail_total m (dats m) c, e3, e4, e5]
  · refine ((h c).2 main_v8 (Pipeline.mem_restRefs_of main_v8 (by decide) (by decide))).trans ?_
    rw [Tail.tail_recon m (dats m) c, e5]
  · refine ((h c).2 main_v22 (Pipeline.mem_restRefs_of main_v22 (by decide) (by decide))).trans ?_
    rw [Tail.tail_cluster m (dats m) c, e3, e4, e5]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.Val

end
-- ==== Proof.lean ====
/-
  A clustering loss: the kernel against its reference.

  Both programs take a reconstruction R and data X (1000000 rows of 64 numbers), a cluster id for every row and a
  table of 100 centres, and return  total = 1·recon + 1·cluster,  recon = Σ (R − X)²,  cluster = Σ (X − C[id])².
  The reference gathers each row's centre and sums the squared differences.  The kernel streams the rows once, two
  per 128-lane packed row, in 100 blocks split over two halves, accumulating per half the one-hot segment sums
  Σ [id = k]·X, the per-cluster counts and the two scalar totals; the host then adds the halves and expands the
  square:  cluster = Σ X² − 2·Σ_{k,d} C·seg + Σ_k count·Σ_d C².
  Over the extended reals the two agree where every float entry is a real number (the expansion of the square and
  the exchange of sums need it) and every id is one of the table's 100 rows (outside that range the reference
  clamps its lookup while the kernel's one-hot row is empty): that is the stated precondition.  The reconstruction
  error needs neither: it is one sum regrouped.
  The frames of the two kernel programs are the generated ones; the reference's frame is its generated run.
-/
import proofs.«413849_j7507602833888_3_alg».proof.Defs
import proofs.«413849_j7507602833888_3_alg».proof.Proof.Gen.Kernel
import proofs.«413849_j7507602833888_3_alg».proof.Proof.Gen.Kernel.Skeleton
import proofs.«413849_j7507602833888_3_alg».proof.Proof.Gen.Kernel.Launch
import proofs.«413849_j7507602833888_3_alg».proof.Proof.Gen.Kernel.Points
import proofs.«413849_j7507602833888_3_alg».proof.Proof.Gen.Kernel.Frame
import proofs.«413849_j7507602833888_3_alg».proof.Proof.Gen.KernelIdeal
import proofs.«413849_j7507602833888_3_alg».proof.Proof.Gen.KernelIdeal.Skeleton
import proofs.«413849_j7507602833888_3_alg».proof.Proof.Gen.KernelIdeal.Launch
import proofs.«413849_j7507602833888_3_alg».proof.Proof.Gen.KernelIdeal.Points
import proofs.«413849_j7507602833888_3_alg».proof.Proof.Gen.KernelIdeal.Frame
import proofs.«413849_j7507602833888_3_alg».proof.Proof.Gen.ReferenceIdeal
import proofs.«413849_j7507602833888_3_alg».proof.Proof.Gen.Pre_finite_inputs
import proofs.«413849_j7507602833888_3_alg».proof.Proof.Gen.ReferenceIdeal.Run
import proofs.«413849_j7507602833888_3_alg».proof.Proof.Gen.ReferenceIdeal.Read
import proofs.«413849_j7507602833888_3_alg».proof.Proof.Algebra
import proofs.«413849_j7507602833888_3_alg».proof.Proof.PreFacts
import proofs.«413849_j7507602833888_3_alg».proof.Proof.RefValue
import proofs.«413849_j7507602833888_3_alg».proof.Proof.KernelRun
import Idealize.ShloMosaic.Adequacy
import Idealize.ShloMosaic.Init

noncomputable section

namespace Cert.Proof

open Idealize.ShloMosaic Idealize.SL.Sem

/-- The two kernel programs run and keep their arguments. -/
theorem frame_k : Cert.frame_Kernel := fun m ρ _ => Cert.Kernel.Gen.frame m ρ
theorem frame_ki : Cert.frame_KernelIdeal := fun m ρ _ => Cert.KernelIdeal.Gen.frame m ρ
/-- The reference runs and keeps its arguments: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From agreeing arguments satisfying the precondition the two programs end with the same three losses. -/
theorem algebraic : Cert.algebraic_KernelIdeal_ReferenceIdeal := by
  intro m ρ m' ρ' hpre hagree
  refine ⟨fun c _ => Cert.KernelIdeal.Val.total m c, fun c _ => Cert.KernelIdeal.Val.recon m c,
    fun c _ => Cert.KernelIdeal.Val.cluster m c, Cert.KernelIdeal.Val.run m ρ, ?_⟩
  refine (θ_run Cert.ReferenceIdeal.defs _ _).mono (fun _ h c => ?_) (Cert.ReferenceIdeal.Value.run (F := Ideal) m' ρ')
  obtain ⟨h15, h2, h12, hk⟩ := h c
  obtain ⟨a0, a1, a2, a3⟩ := hagree c
  obtain ⟨_, fX, rA, fC⟩ := Cert.PreFacts.of_pre _ _ _ _ (hpre c)
  refine ⟨?_, ?_, ?_, hk⟩
  · rw [h15, Cert.ReferenceIdeal.Read.val_main_v15_eq, Cert.ReferenceIdeal.RefValue.v15_eq, a0, a1, a2, a3]
    funext _
    exact (Cert.Spec.total_eq _ _ _ _ fX fC rA).symm
  · rw [h2, Cert.ReferenceIdeal.Read.val_main_v2_eq, Cert.ReferenceIdeal.RefValue.v2_eq, a0, a1]
    funext _
    exact (Cert.Spec.recon_eq _ _).symm
  · rw [h12, Cert.ReferenceIdeal.Read.val_main_v12_eq, Cert.ReferenceIdeal.RefValue.v12_eq, a1, a2, a3]
    funext _
    exact (Cert.Spec.cluster_eq (Cert.KernelIdeal.Val.Rin m c) _ _ _ fX fC rA).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
